-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S960 : Shape := ⟨1, ![960]⟩
abbrev S960x4 : Shape := ⟨2, ![960, 4]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S960x4 : S_.BroadcastsInDim S960x4 (![] : Fin 0 → Fin S960x4.rank)
  reducesTo_S960x4_S_d0_1 : S960x4.ReducesTo [0, 1] S_
  bcast_S_S960 : S_.BroadcastsInDim S960 (![] : Fin 0 → Fin S960.rank)
  reducesTo_S960_S_d0 : S960.ReducesTo [0] S_

variable [Facts]

def fn_part1 {F : FTy → Type} [FloatOps F] (main_arg2 : IVec S960 32) (main_v13 : IVec S_ 1) (main_v15 : IVec S960 1) (main_c_5 : IVec S_ 32) : IVec S_ 1 :=
  let main_v16 : IVec S960 32 := broadcastInDim S960 ![] bcast_S_S960 main_c_5
  let main_v17 : IVec S960 1 := cmpi .slt main_arg2 main_v16
  let main_v18 : IVec S960 1 := andi main_v15 main_v17
  let main_c_6 : IVec S_ 1 := constantI S_ 1 1#1
  let main_v19 : IVec S_ 1 := (fun x v => Host.reduce IntOp.andi x v reducesTo_S960_S_d0 h_S_) main_v18 main_c_6
  let main_v20 : IVec S_ 1 := andi main_v13 main_v19
  main_v20

def fn {F : FTy → Type} [FloatOps F] (main_arg0 : FVec F S16x900x91 .f32) (main_arg1 : FVec F S16x900x4 .f32) (main_arg2 : IVec S960 32) (main_arg3 : FVec F S960x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S960x4 .f32 := Host.absf main_arg3
  let main_cst_2 : FVec F S_ .f32 := constant S_ .f32 0x7F800000#32
  let main_v10 : FVec F S960x4 .f32 := broadcastInDim S960x4 ![] bcast_S_S960x4 main_cst_2
  let main_v11 : IVec S960x4 1 := cmpf .olt main_v9 main_v10
  let main_c_3 : IVec S_ 1 := constantI S_ 1 1#1
  let main_v12 : IVec S_ 1 := (fun x v => Host.reduce IntOp.andi x v reducesTo_S960x4_S_d0_1 h_S_) main_v11 main_c_3
  let main_v13 : IVec S_ 1 := andi main_v8 main_v12
  let main_c_4 : IVec S_ 32 := constantI S_ 32 0#32
  let main_v14 : IVec S960 32 := broadcastInDim S960 ![] bcast_S_S960 main_c_4
  let main_v15 : IVec S960 1 := cmpi .sge main_arg2 main_v14
  let main_c_5 : IVec S_ 32 := constantI S_ 32 91#32
  fn_part1 (F := F) main_arg2 main_v13 main_v15 main_c_5
-- ==== Kernel.lean ====
abbrev S16x900x91 : Shape := ⟨3, ![16, 900, 91]⟩
abbrev S16x900x4 : Shape := ⟨3, ![16, 900, 4]⟩
abbrev S960 : Shape := ⟨1, ![960]⟩
abbrev S960x4 : Shape := ⟨2, ![960, 4]⟩
abbrev S14400x91 : Shape := ⟨2, ![14400, 91]⟩
abbrev S14400x4 : Shape := ⟨2, ![14400, 4]⟩
abbrev S4x960 : Shape := ⟨2, ![4, 960]⟩
abbrev S91 : Shape := ⟨1, ![91]⟩
abbrev S91x1 : Shape := ⟨2, ![91, 1]⟩
abbrev S1x960 : Shape := ⟨2, ![1, 960]⟩
abbrev S91x960 : Shape := ⟨2, ![91, 960]⟩
abbrev S14400x960 : Shape := ⟨2, ![14400, 960]⟩
abbrev S480x91 : Shape := ⟨2, ![480, 91]⟩
abbrev S480x4 : Shape := ⟨2, ![480, 4]⟩
abbrev S480x960 : Shape := ⟨2, ![480, 960]⟩
abbrev S480x1 : Shape := ⟨2, ![480, 1]⟩
abbrev S16x900x960 : Shape := ⟨3, ![16, 900, 960]⟩

abbrev nBuf : Space → Nat
  | .hbm => 16
  | .vmem => 8
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S960, .i32⟩
  | .hbm, ⟨3, _⟩ => ⟨S960x4, .f32⟩
  | .hbm, ⟨4, _⟩ => ⟨S14400x91, .f32⟩
  | .hbm, ⟨5, _⟩ => ⟨S14400x4, .f32⟩
  | .hbm, ⟨6, _⟩ => ⟨S4x960, .f32⟩
  | .hbm, ⟨7, _⟩ => ⟨S91, .i32⟩
  | .hbm, ⟨8, _⟩ => ⟨S91x1, .i32⟩
  | .hbm, ⟨9, _⟩ => ⟨S1x960, .i32⟩
  | .hbm, ⟨10, _⟩ => ⟨S91x960, .i32⟩
  | .hbm, ⟨11, _⟩ => ⟨S91x960, .i32⟩
  | .hbm, ⟨12, _⟩ => ⟨S91x960, .i1⟩
  | .hbm, ⟨13, _⟩ => ⟨S91x960, .f32⟩
  | .hbm, ⟨14, _⟩ => ⟨S14400x960, .f32⟩
  | .hbm, ⟨15, _⟩ => ⟨S16x900x960, .f32⟩
  | .local _ .vmem, ⟨0, _⟩ => ⟨S480x91, .f32⟩
  | .local _ .vmem, ⟨1, _⟩ => ⟨S480x91, .f32⟩
  | .local _ .vmem, ⟨2, _⟩ => ⟨S480x4, .f32⟩
  | .local _ .vmem, ⟨3, _⟩ => ⟨S480x4, .f32⟩
  | .local _ .vmem, ⟨4, _⟩ => ⟨S4x960, .f32⟩
  | .local _ .vmem, ⟨5, _⟩ => ⟨S91x960, .f32⟩
  | .local _ .vmem, ⟨6, _⟩ => ⟨S480x960, .f32⟩
  | .local _ .vmem, ⟨7, _⟩ => ⟨S480x960, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S91x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x91_S14400x91 : S16x900x91.ShapeCasts S14400x91
  shapeCasts_S16x900x4_S14400x4 : S16x900x4.ShapeCasts S14400x4
  transposes_S960x4_S4x960_1_0 : S960x4.Transposes [1, 0] S4x960
  bcast_S91_S91x1_0 : S91.BroadcastsInDim S91x1 (![0] : Fin 1 → Fin S91x1.rank)
  bcast_S960_S1x960_1 : S960.BroadcastsInDim S1x960 (![1] : Fin 1 → Fin S1x960.rank)
  bcast_S91x1_S91x960_0_1 : S91x1.BroadcastsInDim S91x960 (![0, 1] : Fin 2 → Fin S91x960.rank)
  bcast_S1x960_S91x960_0_1 : S1x960.BroadcastsInDim S91x960 (![0, 1] : Fin 2 → Fin S91x960.rank)
  inb_S480x91_S480x91_0_0 : ∀ a, (![0, 0] : Fin 2 → Nat) a + S480x91.size a ≤ S480x91.size a
  h_S480x91 : 0 < S480x91.numel
  shapeCasts_S480x91_S480x91 : S480x91.ShapeCasts S480x91
  inb_S91x960_S91x960_0_0 : ∀ a, (![0, 0] : Fin 2 → Nat) a + S91x960.size a ≤ S91x960.size a
  h_S91x960 : 0 < S91x960.numel
  shapeCasts_S91x960_S91x960 : S91x960.ShapeCasts S91x960
  inb_S480x4_S480x4_0_0 : ∀ a, (![0, 0] : Fin 2 → Nat) a + S480x4.size a ≤ S480x4.size a
  h_S480x4 : 0 < S480x4.numel
  shapeCasts_S480x4_S480x4 : S480x4.ShapeCasts S480x4
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  inb_S4x960_S4x960_0_0 : ∀ a, (![0, 0] : Fin 2 → Nat) a + S4x960.size a ≤ S4x960.size a
  h_S4x960 : 0 < S4x960.numel
  shapeCasts_S4x960_S4x960 : S4x960.ShapeCasts S4x960
  slices_S4x960_o0_0_S1x960 : S4x960.Slices ![0, 0] S1x960
  slices_S4x960_o1_0_S1x960 : S4x960.Slices ![1, 0] S1x960
  slices_S4x960_o2_0_S1x960 : S4x960.Slices ![2, 0] S1x960
  slices_S4x960_o3_0_S1x960 : S4x960.Slices ![3, 0] S1x960
  broadcasts_S480x1_S480x960 : S480x1.Broadcasts S480x960
  broadcasts_S1x960_S480x960 : S1x960.Broadcasts S480x960
  inb_S480x960_S480x960_0_0 : ∀ a, (![0, 0] : Fin 2 → Nat) a + S480x960.size a ≤ S480x960.size a
  h_S480x960 : 0 < S480x960.numel
  shapeCasts_S14400x960_S16x900x960 : S14400x960.ShapeCasts S16x900x960
  dot_S480x91_S91x960_S480x960_1_0_0_1_n_n_wf : DotDims.WF S480x91 S91x960 S480x960 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x91.size a ≤ S14400x91.size a
  hwx0_0 : ∀ i : grid0.Coords, EltTy.bits .f32 = 32 ∨ (Rect.block (s := S14400x91) S480x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x960.size a ≤ S4x960.size a
  hwx0_2 : ∀ i : grid0.Coords, EltTy.bits .f32 = 32 ∨ (Rect.block (s := S4x960) S4x960.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S91x960.size a ≤ S91x960.size a
  hwx0_3 : ∀ i : grid0.Coords, EltTy.bits .f32 = 32 ∨ (Rect.block (s := S91x960) S91x960.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x960.size a ≤ S14400x960.size a
  hwx0_4 : ∀ i : grid0.Coords, EltTy.bits .f32 = 32 ∨ (Rect.block (s := S14400x960) S480x960.size (cc0_transform_4 i) (hinb0_4 i)).WholeWords (EltTy.packing .f32)

variable [Facts₀]

def dot_S480x91_S91x960_S480x960_1_0_0_1_n_n : DotDims S480x91 S91x960 S480x960 where
  lhsContracting := [1]
  rhsContracting := [0]
  lhsNonContracting := [0]
  rhsNonContracting := [1]
  lhsBatch := []
  rhsBatch := []
  wf := dot_S480x91_S91x960_S480x960_1_0_0_1_n_n_wf

abbrev win0_0 : Pipeline.Window sig grid0 :=
  Pipeline.Window.ofSpec (Memref.whole main_v0) S480x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x960.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S91x960.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S480x960.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S960 : Shape := ⟨1, ![960]⟩
abbrev S960x4 : Shape := ⟨2, ![960, 4]⟩
abbrev S14400x91 : Shape := ⟨2, ![14400, 91]⟩
abbrev S_ : Shape := ⟨0, ![]⟩
abbrev S14400x4 : Shape := ⟨2, ![14400, 4]⟩
abbrev S960x1 : Shape := ⟨2, ![960, 1]⟩
abbrev S14400x960 : Shape := ⟨2, ![14400, 960]⟩
abbrev S14400x1x4 : Shape := ⟨3, ![14400, 1, 4]⟩
abbrev S1x960x4 : Shape := ⟨3, ![1, 960, 4]⟩
abbrev S14400x960x4 : Shape := ⟨3, ![14400, 960, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S960x2 : Shape := ⟨2, ![960, 2]⟩
abbrev S1x960x2 : Shape := ⟨3, ![1, 960, 2]⟩
abbrev S14400x960x2 : Shape := ⟨3, ![14400, 960, 2]⟩
abbrev S14400x960x1 : Shape := ⟨3, ![14400, 960, 1]⟩
abbrev S1x960 : Shape := ⟨2, ![1, 960]⟩
abbrev S16x900x960 : Shape := ⟨3, ![16, 900, 960]⟩

abbrev nBuf : Space → Nat
  | .hbm => 222
  | .vmem => 0
  | .smem => 0
  | _ => 0

abbrev hbmTy0_0 (i : Nat) : BufTy := match i % 128 with
  | 0 => ⟨S16x900x91, .f32⟩
  | 1 => ⟨S16x900x4, .f32⟩
  | 2 => ⟨S960, .i32⟩
  | 3 => ⟨S960x4, .f32⟩
  | 4 => ⟨S14400x91, .f32⟩
  | 5 => ⟨S14400x91, .f32⟩
  | 6 => ⟨S14400x91, .f32⟩
  | 7 => ⟨S_, .f32⟩
  | 8 => ⟨S14400x91, .f32⟩
  | 9 => ⟨S14400x91, .f32⟩
  | 10 => ⟨S_, .f32⟩
  | 11 => ⟨S14400x91, .f32⟩
  | 12 => ⟨S14400x91, .f32⟩
  | 13 => ⟨S14400x4, .f32⟩
  | 14 => ⟨S_, .f32⟩
  | 15 => ⟨S14400x91, .f32⟩
  | 16 => ⟨S14400x91, .f32⟩
  | 17 => ⟨S_, .f32⟩
  | 18 => ⟨S14400x91, .f32⟩
  | 19 => ⟨S14400x91, .f32⟩
  | 20 => ⟨S_, .f32⟩
  | 21 => ⟨S14400x91, .f32⟩
  | 22 => ⟨S14400x91, .f32⟩
  | 23 => ⟨S_, .f32⟩
  | 24 => ⟨S14400x91, .f32⟩
  | 25 => ⟨S14400x91, .f32⟩
  | 26 => ⟨S14400x91, .f32⟩
  | 27 => ⟨S14400x91, .f32⟩
  | 28 => ⟨S14400x91, .f32⟩
  | 29 => ⟨S_, .f32⟩
  | 30 => ⟨S14400x91, .f32⟩
  | 31 => ⟨S14400x91, .f32⟩
  | 32 => ⟨S_, .f32⟩
  | 33 => ⟨S14400x91, .f32⟩
  | 34 => ⟨S14400x91, .f32⟩
  | 35 => ⟨S_, .f32⟩
  | 36 => ⟨S14400x91, .f32⟩
  | 37 => ⟨S14400x91, .f32⟩
  | 38 => ⟨S_, .f32⟩
  | 39 => ⟨S14400x91, .f32⟩
  | 40 => ⟨S14400x91, .f32⟩
  | 41 => ⟨S14400x91, .f32⟩
  | 42 => ⟨S14400x91, .f32⟩
  | 43 => ⟨S14400x91, .f32⟩
  | 44 => ⟨S_, .i32⟩
  | 45 => ⟨S960, .i32⟩
  | 46 => ⟨S960, .i1⟩
  | 47 => ⟨S_, .i32⟩
  | 48 => ⟨S960, .i32⟩
  | 49 => ⟨S960, .i32⟩
  | 50 => ⟨S960, .i32⟩
  | 51 => ⟨S960x1, .i32⟩
  | 52 => ⟨S14400x960, .f32⟩
  | 53 => ⟨S_, .i32⟩
  | 54 => ⟨S960, .i32⟩
  | 55 => ⟨S960, .i1⟩
  | 56 => ⟨S_, .i32⟩
  | 57 => ⟨S960, .i32⟩
  | 58 => ⟨S960, .i32⟩
  | 59 => ⟨S960, .i32⟩
  | 60 => ⟨S960x1, .i32⟩
  | 61 => ⟨S14400x960, .f32⟩
  | 62 => ⟨S14400x960, .f32⟩
  | 63 => ⟨S14400x1x4, .f32⟩
  | 64 => ⟨S1x960x4, .f32⟩
  | 65 => ⟨S14400x960x4, .f32⟩
  | 66 => ⟨S14400x960x4, .f32⟩
  | 67 => ⟨S14400x960x4, .f32⟩
  | 68 => ⟨S14400x960x4, .f32⟩
  | 69 => ⟨S_, .f32⟩
  | 70 => ⟨S14400x960, .f32⟩
  | 71 => ⟨S14400x1, .f32⟩
  | 72 => ⟨S14400, .f32⟩
  | 73 => ⟨S14400x1, .f32⟩
  | 74 => ⟨S14400, .f32⟩
  | 75 => ⟨S14400x1, .f32⟩
  | 76 => ⟨S14400, .f32⟩
  | 77 => ⟨S14400x1, .f32⟩
  | 78 => ⟨S14400, .f32⟩
  | 79 => ⟨S_, .f32⟩
  | 80 => ⟨S14400, .f32⟩
  | 81 => ⟨S14400, .f32⟩
  | 82 => ⟨S14400, .f32⟩
  | 83 => ⟨S_, .f32⟩
  | 84 => ⟨S14400, .f32⟩
  | 85 => ⟨S14400, .f32⟩
  | 86 => ⟨S14400, .f32⟩
  | 87 => ⟨S_, .f32⟩
  | 88 => ⟨S14400, .f32⟩
  | 89 => ⟨S14400, .f32⟩
  | 90 => ⟨S14400, .f32⟩
  | 91 => ⟨S_, .f32⟩
  | 92 => ⟨S14400, .f32⟩
  | 93 => ⟨S14400, .f32⟩
  | 94 => ⟨S14400, .f32⟩
  | 95 => ⟨S14400x1, .f32⟩
  | 96 => ⟨S14400x1, .f32⟩
  | 97 => ⟨S14400x1, .f32⟩
  | 98 => ⟨S14400x1, .f32⟩
  | 99 => ⟨S14400x4, .f32⟩
  | 100 => ⟨S960x1, .f32⟩
  | 101 => ⟨S960, .f32⟩
  | 102 => ⟨S960x1, .f32⟩
  | 103 => ⟨S960, .f32⟩
  | 104 => ⟨S960x1, .f32⟩
  | 105 => ⟨S960, .f32⟩
  | 106 => ⟨S960x1, .f32⟩
  | 107 => ⟨S960, .f32⟩
  | 108 => ⟨S_, .f32⟩
  | 109 => ⟨S960, .f32⟩
  | 110 => ⟨S960, .f32⟩
  | 111 => ⟨S960, .f32⟩
  | 112 => ⟨S_, .f32⟩
  | 113 => ⟨S960, .f32⟩
  | 114 => ⟨S960, .f32⟩
  | 115 => ⟨S960, .f32⟩
  | 116 => ⟨S_, .f32⟩
  | 117 => ⟨S960, .f32⟩
  | 118 => ⟨S960, .f32⟩
  | 119 => ⟨S960, .f32⟩
  | 120 => ⟨S_, .f32⟩
  | 121 => ⟨S960, .f32⟩
  | 122 => ⟨S960, .f32⟩
  | 123 => ⟨S960, .f32⟩
  | 124 => ⟨S960x1, .f32⟩
  | 125 => ⟨S960x1, .f32⟩
  | 126 => ⟨S960x1, .f32⟩
  | 127 => ⟨S960x1, .f32⟩
  | _ => ⟨S16x900x91, .f32⟩

abbrev hbmTy0_1 (i : Nat) : BufTy := match i % 128 with
  | 0 => ⟨S960x4, .f32⟩
  | 1 => ⟨S14400x1, .f32⟩
  | 2 => ⟨S14400, .f32⟩
  | 3 => ⟨S14400x1, .f32⟩
  | 4 => ⟨S14400, .f32⟩
  | 5 => ⟨S14400, .f32⟩
  | 6 => ⟨S14400x1, .f32⟩
  | 7 => ⟨S14400, .f32⟩
  | 8 => ⟨S14400x1, .f32⟩
  | 9 => ⟨S14400, .f32⟩
  | 10 => ⟨S14400, .f32⟩
  | 11 => ⟨S14400, .f32⟩
  | 12 => ⟨S960x1, .f32⟩
  | 13 => ⟨S960, .f32⟩
  | 14 => ⟨S960x1, .f32⟩
  | 15 => ⟨S960, .f32⟩
  | 16 => ⟨S960, .f32⟩
  | 17 => ⟨S960x1, .f32⟩
  | 18 => ⟨S960, .f32⟩
  | 19 => ⟨S960x1, .f32⟩
  | 20 => ⟨S960, .f32⟩
  | 21 => ⟨S960, .f32⟩
  | 22 => ⟨S960, .f32⟩
  | 23 => ⟨S14400x2, .f32⟩
  | 24 => ⟨S14400x1x2, .f32⟩
  | 25 => ⟨S960x2, .f32⟩
  | 26 => ⟨S1x960x2, .f32⟩
  | 27 => ⟨S14400x960x2, .f32⟩
  | 28 => ⟨S14400x960x2, .f32⟩
  | 29 => ⟨S14400x960x2, .f32⟩
  | 30 => ⟨S14400x2, .f32⟩
  | 31 => ⟨S14400x1x2, .f32⟩
  | 32 => ⟨S960x2, .f32⟩
  | 33 => ⟨S1x960x2, .f32⟩
  | 34 => ⟨S14400x960x2, .f32⟩
  | 35 => ⟨S14400x960x2, .f32⟩
  | 36 => ⟨S14400x960x2, .f32⟩
  | 37 => ⟨S14400x960x2, .f32⟩
  | 38 => ⟨S_, .f32⟩
  | 39 => ⟨S_, .f32⟩
  | 40 => ⟨S14400x960x2, .f32⟩
  | 41 => ⟨S14400x960x2, .f32⟩
  | 42 => ⟨S14400x960x1, .f32⟩
  | 43 => ⟨S14400x960, .f32⟩
  | 44 => ⟨S14400x960x1, .f32⟩
  | 45 => ⟨S14400x960, .f32⟩
  | 46 => ⟨S14400x960, .f32⟩
  | 47 => ⟨S14400x1, .f32⟩
  | 48 => ⟨S1x960, .f32⟩
  | 49 => ⟨S14400x960, .f32⟩
  | 50 => ⟨S14400x960, .f32⟩
  | 51 => ⟨S14400x960, .f32⟩
  | 52 => ⟨S14400x960, .f32⟩
  | 53 => ⟨S14400x960, .f32⟩
  | 54 => ⟨S14400x2, .f32⟩
  | 55 => ⟨S14400x1x2, .f32⟩
  | 56 => ⟨S960x2, .f32⟩
  | 57 => ⟨S1x960x2, .f32⟩
  | 58 => ⟨S14400x960x2, .f32⟩
  | 59 => ⟨S14400x960x2, .f32⟩
  | 60 => ⟨S14400x960x2, .f32⟩
  | 61 => ⟨S14400x2, .f32⟩
  | 62 => ⟨S14400x1x2, .f32⟩
  | 63 => ⟨S960x2, .f32⟩
  | 64 => ⟨S1x960x2, .f32⟩
  | 65 => ⟨S14400x960x2, .f32⟩
  | 66 => ⟨S14400x960x2, .f32⟩
  | 67 => ⟨S14400x960x2, .f32⟩
  | 68 => ⟨S14400x960x2, .f32⟩
  | 69 => ⟨S_, .f32⟩
  | 70 => ⟨S_, .f32⟩
  | 71 => ⟨S14400x960x2, .f32⟩
  | 72 => ⟨S14400x960x2, .f32⟩
  | 73 => ⟨S14400x960x1, .f32⟩
  | 74 => ⟨S14400x960, .f32⟩
  | 75 => ⟨S14400x960x1, .f32⟩
  | 76 => ⟨S14400x960, .f32⟩
  | 77 => ⟨S14400x960, .f32⟩
  | 78 => ⟨S14400x960, .f32⟩
  | 79 => ⟨S14400x960, .f32⟩
  | 80 => ⟨S14400x960, .f32⟩
  | 81 => ⟨S14400x960, .f32⟩
  | 82 => ⟨S_, .f32⟩
  | 83 => ⟨S14400x960, .f32⟩
  | 84 => ⟨S14400x960, .f32⟩
  | 85 => ⟨S_, .f32⟩
  | 86 => ⟨S14400x960, .f32⟩
  | 87 => ⟨S14400x960, .f32⟩
  | 88 => ⟨S14400x960, .f32⟩
  | 89 => ⟨S_, .f32⟩
  | 90 => ⟨S14400x960, .f32⟩
  | 91 => ⟨S14400x960, .f32⟩
  | 92 => ⟨S14400x960, .f32⟩
  | 93 => ⟨S16x900x960, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_17 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_20 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_21 : Ref sig .tc := ⟨.hbm, 166, rfl⟩
abbrev main_call0_v0 : Ref sig .tc := ⟨.hbm, 167, rfl⟩
abbrev main_call0_v1 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_cst_22 : Ref sig .tc := ⟨.hbm, 197, rfl⟩
abbrev main_call1_v0 : Ref sig .tc := ⟨.hbm, 198, rfl⟩
abbrev main_call1_v1 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_cst_23 : Ref sig .tc := ⟨.hbm, 210, rfl⟩
abbrev main_v177 : Ref sig .tc := ⟨.hbm, 211, rfl⟩
abbrev main_v178 : Ref sig .tc := ⟨.hbm, 212, rfl⟩
abbrev main_cst_24 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_cst_25 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  bcast_S_S960 : S_.BroadcastsInDim S960 (![] : Fin 0 → Fin S960.rank)
  bcast_S960_S960x1_0 : S960.BroadcastsInDim S960x1 (![0] : Fin 1 → Fin S960x1.rank)
  bcast_S14400x4_S14400x1x4_0_2 : S14400x4.BroadcastsInDim S14400x1x4 (![0, 2] : Fin 2 → Fin S14400x1x4.rank)
  bcast_S960x4_S1x960x4_1_2 : S960x4.BroadcastsInDim S1x960x4 (![1, 2] : Fin 2 → Fin S1x960x4.rank)
  bcast_S14400x1x4_S14400x960x4_0_1_2 : S14400x1x4.BroadcastsInDim S14400x960x4 (![0, 1, 2] : Fin 3 → Fin S14400x960x4.rank)
  bcast_S1x960x4_S14400x960x4_0_1_2 : S1x960x4.BroadcastsInDim S14400x960x4 (![0, 1, 2] : Fin 3 → Fin S14400x960x4.rank)
  reducesTo_S14400x960x4_S14400x960_d2 : S14400x960x4.ReducesTo [2] S14400x960
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S960x4_S960x1_0_0 : S960x4.Slices ![0, 0] S960x1
  shapeCasts_S960x1_S960 : S960x1.ShapeCasts S960
  slices_S960x4_S960x1_0_1 : S960x4.Slices ![0, 1] S960x1
  slices_S960x4_S960x1_0_2 : S960x4.Slices ![0, 2] S960x1
  slices_S960x4_S960x1_0_3 : S960x4.Slices ![0, 3] S960x1
  concatenates_S960x1_S960x1_S960x1_S960x1_S960x4_d1 : Shape.Concatenates [S960x1, S960x1, S960x1, S960x1] S960x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S960x4_S960x2_0_0 : S960x4.Slices ![0, 0] S960x2
  bcast_S960x2_S1x960x2_1_2 : S960x2.BroadcastsInDim S1x960x2 (![1, 2] : Fin 2 → Fin S1x960x2.rank)
  bcast_S14400x1x2_S14400x960x2_0_1_2 : S14400x1x2.BroadcastsInDim S14400x960x2 (![0, 1, 2] : Fin 3 → Fin S14400x960x2.rank)
  bcast_S1x960x2_S14400x960x2_0_1_2 : S1x960x2.BroadcastsInDim S14400x960x2 (![0, 1, 2] : Fin 3 → Fin S14400x960x2.rank)
  slices_S14400x4_S14400x2_0_2 : S14400x4.Slices ![0, 2] S14400x2
  slices_S960x4_S960x2_0_2 : S960x4.Slices ![0, 2] S960x2
  bcast_S_S14400x960x2 : S_.BroadcastsInDim S14400x960x2 (![] : Fin 0 → Fin S14400x960x2.rank)
  slices_S14400x960x2_S14400x960x1_0_0_0 : S14400x960x2.Slices ![0, 0, 0] S14400x960x1
  shapeCasts_S14400x960x1_S14400x960 : S14400x960x1.ShapeCasts S14400x960
  slices_S14400x960x2_S14400x960x1_0_0_1 : S14400x960x2.Slices ![0, 0, 1] S14400x960x1
  bcast_S960_S1x960_1 : S960.BroadcastsInDim S1x960 (![1] : Fin 1 → Fin S1x960.rank)
  bcast_S14400x1_S14400x960_0_1 : S14400x1.BroadcastsInDim S14400x960 (![0, 1] : Fin 2 → Fin S14400x960.rank)
  bcast_S1x960_S14400x960_0_1 : S1x960.BroadcastsInDim S14400x960 (![0, 1] : Fin 2 → Fin S14400x960.rank)
  bcast_S_S14400x960 : S_.BroadcastsInDim S14400x960 (![] : Fin 0 → Fin S14400x960.rank)
  shapeCasts_S14400x960_S16x900x960 : S14400x960.ShapeCasts S16x900x960
  gather_S14400x91_S960x1_S14400x960_0_1_n_n_1_1_144001_wf : GatherDims.WF S14400x91 S960x1 S14400x960 [0] [1] [] [1] [] 1 ![14400, 1]

variable [Facts₀]

def gather_S14400x91_S960x1_S14400x960_0_1_n_n_1_1_144001 : GatherDims S14400x91 S960x1 S14400x960 where
  offsetDims := [0]
  collapsedSliceDims := [1]
  operandBatchingDims := []
  startIndicesBatchingDims := []
  startIndexMap := [1]
  indexVectorDim := 1
  sliceSizes := ![14400, 1]
  wf := gather_S14400x91_S960x1_S14400x960_0_1_n_n_1_1_144001_wf

class Facts : Prop extends Facts₀ where

variable [Facts]
-- ==== Proof.PreDecode.lean ====
/-
  What the precondition says, read out of its printed predicate: every entry of the three float inputs is a real
  number (its absolute value is below +infinity), and every target class word, read as a signed integer, lies in
  [0, 91).
-/
import proofs.«410341_j55362128445461_2_alg».proof.Pre_finite_inputs
import Idealize.ShloMosaic.PureOps.Ideal
import Idealize.ShloMosaic.Lib.ReduceAll
import Idealize.ShloMosaic.Lib.ValueIdx

noncomputable section

open scoped BigOperators

namespace Cert.PreDecode

open Idealize.ShloMosaic Idealize.ShloMosaic.ValueIdx Cert.Pre_finite_inputs

variable [Cert.Pre_finite_inputs.Facts]

/-- The scalar shape has one index. -/
private theorem idx_subsingleton : Subsingleton S_.Idx := ⟨fun a b => funext fun d => d.elim0⟩

/-- The word 0x7F800000 denotes +infinity. -/
private theorem ofBits_inf : Ideal.ofBits .f32 0x7F800000#32 = ⊤ := by simp [Ideal.ofBits, Ideal.ieee]

/-- An extended real whose absolute value max x (-x) is strictly below +infinity is a real number: at either
    infinity the absolute value is +infinity itself, which is not below +infinity. -/
private theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A word that is at least 0 and below 91 under the signed order has its signed value in [0, 91). -/
private theorem range_of_cmp (w : BitVec 32) (h0 : IntOp.cmpi .sge w 0#32 = 1#1) (h1 : IntOp.cmpi .slt w 91#32 = 1#1) :
    0 ≤ w.toInt ∧ w.toInt < 91 := by
  rw [IntOp.cmpi_sge] at h0
  rw [IntOp.cmpi_slt] at h1
  exact ⟨by simpa using h0, by simpa using h1⟩

/-- The precondition decoded: finite float entries, class words in [0, 91). -/
theorem decode (a0 : FVec Ideal S16x900x91 .f32) (a1 : FVec Ideal S16x900x4 .f32) (a2 : IVec S960 32) (a3 : FVec Ideal S960x4 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a3 i = (r : EReal))
      ∧ ∀ j, 0 ≤ (a2 j).toInt ∧ (a2 j).toInt < 91 := by
  -- the predicate at its one index is a conjunction of four universal statements, one per input
  have e := congrFun h ValueIdx.ix0
  unfold Cert.Pre_finite_inputs.fn Cert.Pre_finite_inputs.fn_part1 at e
  dsimp only at e
  simp only [andi, IntOp.andi_eq_one] at e
  obtain ⟨⟨⟨h0, h1⟩, h3⟩, h2⟩ := e
  haveI : Subsingleton S_.Idx := idx_subsingleton
  -- a conjunction over all entries that holds, holds at each entry
  refine ⟨fun i => ?_, fun i => ?_, fun i => ?_, fun j => ?_⟩
  · exact real_of_abs_lt _ (Host.reduce_andi_all _ _ _ _ _ h0 i)
  · exact real_of_abs_lt _ (Host.reduce_andi_all _ _ _ _ _ h1 i)
  · exact real_of_abs_lt _ (Host.reduce_andi_all _ _ _ _ _ h3 i)
  · obtain ⟨hge, hlt⟩ := IntOp.andi_eq_one.1 (Host.reduce_andi_all _ _ _ _ _ h2 j)
    exact range_of_cmp _ hge hlt

end Cert.PreDecode

end
-- ==== Proof.Spec.lean ====
/-
  The matching cost of one (query box, target box) pair as ONE function on the extended reals, and the cost matrix
  built from it.

  For a query with class logits `x_k` (k < 91) and box (cx1, cy1, w1, h1), and a target with class word `w` and box
  (cx2, cy2, w2, h2):
    * the class term of logit x is pos(p) - neg(p) at p = 1 / (1 + e^(-x)), with
        neg(p) = 0.75 * p^2 * (0 - log (1 - p + eps)),   pos(p) = 0.25 * (1 - p)^2 * (0 - log (p + eps));
      the target's class selects one of the 91 class terms, written here as the sum over k of the k-th class term
      times the indicator "k is the target's class word" (a sum with at most one non-zero term);
    * the L1 term is |cx1 - cx2| + |cy1 - cy2| + |w1 - w2| + |h1 - h2|, with |a| = max a (-a);
    * a box's sides run from c - s/2 to c + s/2 on each axis; the intersection is the product of the two axes'
      overlaps (clipped below at 0), the union is w1*h1 + w2*h2 - intersection, the hull is the product of the two
      axes' spans, and the generalized IoU is intersection / union - (hull - union) / hull;
    * the cost is 5 * L1 + 2 * class + 2 * (0 - GIoU).
  Float literals are kept as their words (`lit`); the same word stands on both programs' sides.
-/
import Idealize.ShloMosaic.PureOps.Ideal
import Idealize.ShloMosaic.Lib.ValueIdx

noncomputable section

open scoped BigOperators

namespace Cert.PairCost

open Idealize.ShloMosaic Idealize.ShloMosaic.ValueIdx

/-- An f32 word read as the extended real it denotes. -/
abbrev lit (w : BitVec 32) : EReal := Ideal.ofBits .f32 w

/-- 0.75 * p^2 * (0 - log (1 - p + eps)). -/
def negTerm (p : EReal) : EReal :=
  (lit 0x3F400000#32 * (p * p)) * (lit 0x00000000#32 - Ideal.log ((lit 0x3F800000#32 - p) + lit 0x322BCC77#32))

/-- 0.25 * (1 - p)^2 * (0 - log (p + eps)). -/
def posTerm (p : EReal) : EReal :=
  (lit 0x3E800000#32 * ((lit 0x3F800000#32 - p) * (lit 0x3F800000#32 - p))) * (lit 0x00000000#32 - Ideal.log (p + lit 0x322BCC77#32))

/-- The class term of a logit: pos - neg at its sigmoid. -/
def classTerm (x : EReal) : EReal := posTerm (Ideal.logistic x) - negTerm (Ideal.logistic x)

/-- The indicator that class `k` is the class word `w`: 1 if the 32-bit word of `k` equals `w`, else 0. -/
def oneHot (k : Fin 91) (w : BitVec 32) : EReal := (((IntOp.cmpi .eq (BitVec.ofNat 32 k.val) w).toNat : ℝ) : EReal)

/-- The class term selected by the class word `w` from a row of 91 logits, as a sum against the indicator. -/
def classSum (row : Fin 91 → EReal) (w : BitVec 32) : EReal := ∑ k : Fin 91, classTerm (row k) * oneHot k w

/-- The low side c - s/2 and the high side c + s/2 of a box on one axis. -/
def lo (c s : EReal) : EReal := c - lit 0x3F000000#32 * s
def hi (c s : EReal) : EReal := c + lit 0x3F000000#32 * s

/-- The overlap of two boxes on one axis, clipped below at 0, and the span of their hull on that axis. -/
def overlap (c1 s1 c2 s2 : EReal) : EReal := max (min (hi c1 s1) (hi c2 s2) - max (lo c1 s1) (lo c2 s2)) (lit 0x00000000#32)
def span (c1 s1 c2 s2 : EReal) : EReal := max (max (hi c1 s1) (hi c2 s2) - min (lo c1 s1) (lo c2 s2)) (lit 0x00000000#32)

/-- |cx1 - cx2| + |cy1 - cy2| + |w1 - w2| + |h1 - h2|, summed from the left, |a| = max a (-a). -/
def l1Term (cx1 cy1 w1 h1 cx2 cy2 w2 h2 : EReal) : EReal :=
  ((max (cx1 - cx2) (-(cx1 - cx2)) + max (cy1 - cy2) (-(cy1 - cy2))) + max (w1 - w2) (-(w1 - w2))) + max (h1 - h2) (-(h1 - h2))

/-- Intersection, union and hull areas. -/
def interArea (cx1 cy1 w1 h1 cx2 cy2 w2 h2 : EReal) : EReal := overlap cx1 w1 cx2 w2 * overlap cy1 h1 cy2 h2
def unionArea (cx1 cy1 w1 h1 cx2 cy2 w2 h2 : EReal) : EReal := (w1 * h1 + w2 * h2) - interArea cx1 cy1 w1 h1 cx2 cy2 w2 h2
def hullArea (cx1 cy1 w1 h1 cx2 cy2 w2 h2 : EReal) : EReal := span cx1 w1 cx2 w2 * span cy1 h1 cy2 h2

/-- The generalized IoU: intersection / union - (hull - union) / hull. -/
def giou (cx1 cy1 w1 h1 cx2 cy2 w2 h2 : EReal) : EReal :=
  Ideal.div (interArea cx1 cy1 w1 h1 cx2 cy2 w2 h2) (unionArea cx1 cy1 w1 h1 cx2 cy2 w2 h2)
    - Ideal.div (hullArea cx1 cy1 w1 h1 cx2 cy2 w2 h2 - unionArea cx1 cy1 w1 h1 cx2 cy2 w2 h2) (hullArea cx1 cy1 w1 h1 cx2 cy2 w2 h2)

/-- The pair's cost from its class term and the two boxes: 5 * L1 + 2 * class + 2 * (0 - GIoU). -/
def pairCost (cls cx1 cy1 w1 h1 cx2 cy2 w2 h2 : EReal) : EReal :=
  (lit 0x40A00000#32 * l1Term cx1 cy1 w1 h1 cx2 cy2 w2 h2 + lit 0x40000000#32 * cls)
    + lit 0x40000000#32 * (lit 0x00000000#32 - giou cx1 cy1 w1 h1 cx2 cy2 w2 h2)

/-! ## The cost matrix -/

/-- The cost matrix [14400, 960] from the kernel's four staged arrays: the logits [14400, 91], the query boxes
    [14400, 4], the target boxes transposed [4, 960] and the class indicator matrix [91, 960]. Entry (r, j) is the
    pair cost of query row r and target column j, its class term the sum over k of the k-th class term of row r
    times the indicator's entry (k, j). -/
def costOfStaged (X0 : (⟨2, ![14400, 91]⟩ : Shape).Idx → EReal) (X1 : (⟨2, ![14400, 4]⟩ : Shape).Idx → EReal)
    (X2 : (⟨2, ![4, 960]⟩ : Shape).Idx → EReal) (X3 : (⟨2, ![91, 960]⟩ : Shape).Idx → EReal) :
    (⟨2, ![14400, 960]⟩ : Shape).Idx → EReal :=
  fun y => pairCost (∑ k : Fin 91, classTerm (X0 (ix2 (y 0) k)) * X3 (ix2 k (y 1)))
    (X1 (ix2 (y 0) (0 : Fin 4))) (X1 (ix2 (y 0) (1 : Fin 4))) (X1 (ix2 (y 0) (2 : Fin 4))) (X1 (ix2 (y 0) (3 : Fin 4)))
    (X2 (ix2 (0 : Fin 4) (y 1))) (X2 (ix2 (1 : Fin 4) (y 1))) (X2 (ix2 (2 : Fin 4) (y 1))) (X2 (ix2 (3 : Fin 4) (y 1)))

/-- Entry (p, q) of the cost matrix from the flattened logits [14400, 91], the flattened query boxes [14400, 4], the
    target class words [960] and the target boxes [960, 4]. -/
def costAt (X0 : (⟨2, ![14400, 91]⟩ : Shape).Idx → EReal) (X1 : (⟨2, ![14400, 4]⟩ : Shape).Idx → EReal)
    (ids : (⟨1, ![960]⟩ : Shape).Idx → BitVec 32) (T : (⟨2, ![960, 4]⟩ : Shape).Idx → EReal) (p : Fin 14400) (q : Fin 960) : EReal :=
  pairCost (classSum (fun k => X0 (ix2 p k)) (ids (ix1 q)))
    (X1 (ix2 p (0 : Fin 4))) (X1 (ix2 p (1 : Fin 4))) (X1 (ix2 p (2 : Fin 4))) (X1 (ix2 p (3 : Fin 4)))
    (T (ix2 q (0 : Fin 4))) (T (ix2 q (1 : Fin 4))) (T (ix2 q (2 : Fin 4))) (T (ix2 q (3 : Fin 4)))

/-- The cost matrix [14400, 960]. -/
def costMatrix (X0 : (⟨2, ![14400, 91]⟩ : Shape).Idx → EReal) (X1 : (⟨2, ![14400, 4]⟩ : Shape).Idx → EReal)
    (ids : (⟨1, ![960]⟩ : Shape).Idx → BitVec 32) (T : (⟨2, ![960, 4]⟩ : Shape).Idx → EReal) :
    (⟨2, ![14400, 960]⟩ : Shape).Idx → EReal :=
  fun y => costAt X0 X1 ids T (y 0) (y 1)

end Cert.PairCost

end
-- ==== Proof.KernelBody.lean ====
/-
  One entry of the kernel body's output block. At row p and column q of the [480, 960] block the body's stored value
  is the pair cost of query row p (its 91 logits and its box, from the first two input blocks) and target column q
  (its box from the transposed target block, its class through column q of the indicator block): the matrix product
  of the class terms with the indicator block is, at (p, q), the sum over k of the k-th class term of row p times
  the indicator's entry (k, q).
-/
import proofs.«410341_j55362128445461_2_alg».proof.Proof.Gen.KernelIdeal.Frame
import proofs.«410341_j55362128445461_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.PairCost
open Idealize.ShloMosaic Idealize.ShloMosaic.ValueIdx

/-! ## Small facts

The offsets of every whole-buffer rectangle are zero; the absolute value at an index is max x (-x); a column
[a, 1] read at (p, c) of its broadcast to [a, b] is its entry (p, 0). -/

/-- The offset vector (0, 0) is the zero function. -/
private theorem offsets_zero : (![0, 0] : Fin 2 → Nat) = fun _ => 0 := by
  funext a
  match a with
  | ⟨0, _⟩ => rfl
  | ⟨1, _⟩ => rfl

/-- |x| at an index is max x (-x). -/
private theorem absf_at {s : Shape} {φ : FTy} (a : FVec Ideal s φ) (i : s.Idx) : absf a i = max (a i) (-(a i)) := rfl

/-- A column broadcast along the second axis reads, at (p, c), the column's entry p. -/
private theorem column_broadcast_at {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four columns of the query boxes and the four rows of the target boxes -/

section Slices
variable (x1 : Vec Ideal S480x4 .f32) (x2 : Vec Ideal S4x960 .f32) (p : Fin 480) (q : Fin 960)

/-- Column 0 of the query block: the centre's first coordinate. -/
private theorem query_col0 : k0_pay3 x1 (ix2 p (0 : Fin 1)) = x1 (ix2 p (0 : Fin 4)) := by
  show extractStridedSlice S480x1 ![0, 0] (shapeCast S480x4 x1 shapeCasts_S480x4_S480x4) slices_S480x4_o0_0_S480x1 (ix2 p (0 : Fin 1)) = _
  rw [shapeCast_self]
  exact slice2_axis1_apply 0 x1 _ p 0 0 rfl

/-- Column 1: the centre's second coordinate. -/
private theorem query_col1 : k0_pay4 x1 (ix2 p (0 : Fin 1)) = x1 (ix2 p (1 : Fin 4)) := by
  show extractStridedSlice S480x1 ![0, 1] (shapeCast S480x4 x1 shapeCasts_S480x4_S480x4) slices_S480x4_o0_1_S480x1 (ix2 p (0 : Fin 1)) = _
  rw [shapeCast_self]
  exact slice2_axis1_apply 1 x1 _ p 0 1 rfl

/-- Column 2: the width. -/
private theorem query_col2 : k0_pay5 x1 (ix2 p (0 : Fin 1)) = x1 (ix2 p (2 : Fin 4)) := by
  show extractStridedSlice S480x1 ![0, 2] (shapeCast S480x4 x1 shapeCasts_S480x4_S480x4) slices_S480x4_o0_2_S480x1 (ix2 p (0 : Fin 1)) = _
  rw [shapeCast_self]
  exact slice2_axis1_apply 2 x1 _ p 0 2 rfl

/-- Column 3: the height. -/
private theorem query_col3 : k0_pay6 x1 (ix2 p (0 : Fin 1)) = x1 (ix2 p (3 : Fin 4)) := by
  show extractStridedSlice S480x1 ![0, 3] (shapeCast S480x4 x1 shapeCasts_S480x4_S480x4) slices_S480x4_o0_3_S480x1 (ix2 p (0 : Fin 1)) = _
  rw [shapeCast_self]
  exact slice2_axis1_apply 3 x1 _ p 0 3 rfl

/-- Row 0 of the transposed target block: the centre's first coordinate. -/
private theorem target_row0 : k0_pay13 x2 (ix2 (0 : Fin 1) q) = x2 (ix2 (0 : Fin 4) q) := by
  show extractStridedSlice S1x960 ![0, 0] (shapeCast S4x960 x2 shapeCasts_S4x960_S4x960) slices_S4x960_o0_0_S1x960 (ix2 (0 : Fin 1) q) = _
  rw [shapeCast_self]
  exact slice2_axis0_apply 0 x2 _ 0 q 0 rfl

/-- Row 1: the centre's second coordinate. -/
private theorem target_row1 : k0_pay14 x2 (ix2 (0 : Fin 1) q) = x2 (ix2 (1 : Fin 4) q) := by
  show extractStridedSlice S1x960 ![1, 0] (shapeCast S4x960 x2 shapeCasts_S4x960_S4x960) slices_S4x960_o1_0_S1x960 (ix2 (0 : Fin 1) q) = _
  rw [shapeCast_self]
  exact slice2_axis0_apply 1 x2 _ 0 q 1 rfl

/-- Row 2: the width. -/
private theorem target_row2 : k0_pay15 x2 (ix2 (0 : Fin 1) q) = x2 (ix2 (2 : Fin 4) q) := by
  show extractStridedSlice S1x960 ![2, 0] (shapeCast S4x960 x2 shapeCasts_S4x960_S4x960) slices_S4x960_o2_0_S1x960 (ix2 (0 : Fin 1) q) = _
  rw [shapeCast_self]
  exact slice2_axis0_apply 2 x2 _ 0 q 2 rfl

/-- Row 3: the height. -/
private theorem target_row3 : k0_pay16 x2 (ix2 (0 : Fin 1) q) = x2 (ix2 (3 : Fin 4) q) := by
  show extractStridedSlice S1x960 ![3, 0] (shapeCast S4x960 x2 shapeCasts_S4x960_S4x960) slices_S4x960_o3_0_S1x960 (ix2 (0 : Fin 1) q) = _
  rw [shapeCast_self]
  exact slice2_axis0_apply 3 x2 _ 0 q 3 rfl

/-! ## The low and high sides of the two boxes, c - s/2 and c + s/2 on each axis -/

private theorem query_lo_x : k0_pay7 x1 (ix2 p (0 : Fin 1)) = lo (x1 (ix2 p (0 : Fin 4))) (x1 (ix2 p (2 : Fin 4))) := by
  show k0_pay3 x1 (ix2 p (0 : Fin 1)) - lit 0x3F000000#32 * k0_pay5 x1 (ix2 p (0 : Fin 1)) = _
  rw [query_col0, query_col2]; rfl

private theorem query_lo_y : k0_pay9 (k0_pay4 x1) (k0_pay6 x1) (k0_pay8 (F := Ideal)) (ix2 p (0 : Fin 1))
    = lo (x1 (ix2 p (1 : Fin 4))) (x1 (ix2 p (3 : Fin 4))) := by
  show k0_pay4 x1 (ix2 p (0 : Fin 1)) - lit 0x3F000000#32 * k0_pay6 x1 (ix2 p (0 : Fin 1)) = _
  rw [query_col1, query_col3]; rfl

private theorem query_hi_x : k0_pay10 (k0_pay3 x1) (k0_pay5 x1) (ix2 p (0 : Fin 1))
    = hi (x1 (ix2 p (0 : Fin 4))) (x1 (ix2 p (2 : Fin 4))) := by
  show k0_pay3 x1 (ix2 p (0 : Fin 1)) + lit 0x3F000000#32 * k0_pay5 x1 (ix2 p (0 : Fin 1)) = _
  rw [query_col0, query_col2]; rfl

private theorem query_hi_y : k0_pay11 (k0_pay4 x1) (k0_pay6 x1) (ix2 p (0 : Fin 1))
    = hi (x1 (ix2 p (1 : Fin 4))) (x1 (ix2 p (3 : Fin 4))) := by
  show k0_pay4 x1 (ix2 p (0 : Fin 1)) + lit 0x3F000000#32 * k0_pay6 x1 (ix2 p (0 : Fin 1)) = _
  rw [query_col1, query_col3]; rfl

private theorem target_lo_x : k0_pay17 x2 (ix2 (0 : Fin 1) q) = lo (x2 (ix2 (0 : Fin 4) q)) (x2 (ix2 (2 : Fin 4) q)) := by
  show k0_pay13 x2 (ix2 (0 : Fin 1) q) - lit 0x3F000000#32 * k0_pay15 x2 (ix2 (0 : Fin 1) q) = _
  rw [target_row0, target_row2]; rfl

private theorem target_lo_y : k0_pay18 x2 (ix2 (0 : Fin 1) q) = lo (x2 (ix2 (1 : Fin 4) q)) (x2 (ix2 (3 : Fin 4) q)) := by
  show k0_pay14 x2 (ix2 (0 : Fin 1) q) - lit 0x3F000000#32 * k0_pay16 x2 (ix2 (0 : Fin 1) q) = _
  rw [target_row1, target_row3]; rfl

private theorem target_hi_x : k0_pay19 x2 (ix2 (0 : Fin 1) q) = hi (x2 (ix2 (0 : Fin 4) q)) (x2 (ix2 (2 : Fin 4) q)) := by
  show k0_pay13 x2 (ix2 (0 : Fin 1) q) + lit 0x3F000000#32 * k0_pay15 x2 (ix2 (0 : Fin 1) q) = _
  rw [target_row0, target_row2]; rfl

private theorem target_hi_y : k0_pay20 x2 (ix2 (0 : Fin 1) q) = hi (x2 (ix2 (1 : Fin 4) q)) (x2 (ix2 (3 : Fin 4) q)) := by
  show k0_pay14 x2 (ix2 (0 : Fin 1) q) + lit 0x3F000000#32 * k0_pay16 x2 (ix2 (0 : Fin 1) q) = _
  rw [target_row1, target_row3]; rfl

end Slices

/-! ## The matrix product at an entry -/

/-- The product of a [480, 91] block with a [91, 960] block into the zero block is, at (p, q), the sum over the
    contracted coordinate k of the entries (p, k) times (k, q). -/
private theorem product_at (A : FVec Ideal S480x91 .f32) (B : FVec Ideal S91x960 .f32) (p : Fin 480) (q : Fin 960) :
    matmul dot_S480x91_S91x960_S480x960_1_0_0_1_n_n (some .fp32) A B (constant (F := Ideal) S480x960 .f32 0x00000000#32) (ix2 p q)
      = ∑ k : Fin 91, A (ix2 p k) * B (ix2 k q) := by
  show FloatOps.matmul dot_S480x91_S91x960_S480x960_1_0_0_1_n_n (some .fp32) A B (constant (F := Ideal) S480x960 .f32 0x00000000#32) (ix2 p q) = _
  rw [Ideal.matmul_constant_zero_apply, ← Equiv.sum_comp (contrEquiv1 dot_S480x91_S91x960_S480x960_1_0_0_1_n_n 91 rfl rfl).symm]
  refine Finset.sum_congr rfl fun k _ => ?_
  have ck := contrEquiv1_symm_val dot_S480x91_S91x960_S480x960_1_0_0_1_n_n 91 rfl rfl k
  have l : dot_S480x91_S91x960_S480x960_1_0_0_1_n_n.lhsIdx (ix2 p q) ((contrEquiv1 _ 91 rfl rfl).symm k) = ix2 p k := by
    funext ax; apply Fin.ext
    match ax with
    | ⟨0, _⟩ => simp [DotDims.lhsIdx, dot_S480x91_S91x960_S480x960_1_0_0_1_n_n]; rfl
    | ⟨1, _⟩ => simp [DotDims.lhsIdx, dot_S480x91_S91x960_S480x960_1_0_0_1_n_n]; exact ck
  have r : dot_S480x91_S91x960_S480x960_1_0_0_1_n_n.rhsIdx (ix2 p q) ((contrEquiv1 _ 91 rfl rfl).symm k) = ix2 k q := by
    funext ax; apply Fin.ext
    match ax with
    | ⟨0, _⟩ => simp [DotDims.rhsIdx, dot_S480x91_S91x960_S480x960_1_0_0_1_n_n]; exact ck
    | ⟨1, _⟩ => simp [DotDims.rhsIdx, dot_S480x91_S91x960_S480x960_1_0_0_1_n_n]; rfl
  rw [l, r]

/-- The class part: each logit's class term, then the product with the indicator block. -/
private theorem class_part_at (x0 : Vec Ideal S480x91 .f32) (x3 : Vec Ideal S91x960 .f32) (p : Fin 480) (q : Fin 960) :
    k0_pay1 x0 x3 (ix2 p q) = ∑ k : Fin 91, classTerm (x0 (ix2 p k)) * x3 (ix2 k q) := by
  simp only [k0_pay1, shapeCast_self]
  rw [product_at]
  refine Finset.sum_congr rfl fun k _ => ?_
  rfl

/-! ## The box parts over the columns and rows -/

section Boxes
variable (v33 v34 v35 v36 v39 v40 v42 v45 v48 : FVec Ideal S480x1 .f32) (v52 v53 v54 v55 v58 v61 v64 v67 : FVec Ideal S1x960 .f32)
  (x2 : Vec Ideal S4x960 .f32) (v30 v87 v90 : FVec Ideal S480x960 .f32) (p : Fin 480) (q : Fin 960)

/-- The intersection: the product of the two axes' overlaps, each the least high side minus the greatest low
    side, clipped below at 0. -/
private theorem intersection_at :
    k0_pay21 v33 v34 v35 v36 v39 v40 x2 (ix2 p q)
      = max (min (k0_pay10 v33 v35 (ix2 p (0 : Fin 1))) (k0_pay19 x2 (ix2 (0 : Fin 1) q))
              - max (v39 (ix2 p (0 : Fin 1))) (k0_pay17 x2 (ix2 (0 : Fin 1) q))) (lit 0x00000000#32)
        * max (min (k0_pay11 v34 v36 (ix2 p (0 : Fin 1))) (k0_pay20 x2 (ix2 (0 : Fin 1) q))
              - max (k0_pay9 v34 v36 v40 (ix2 p (0 : Fin 1))) (k0_pay18 x2 (ix2 (0 : Fin 1) q))) (lit 0x00000000#32) := by
  unfold k0_pay21
  simp only [mulf_apply, maximumf_apply, minimumf_apply, subf_apply, broadcast_apply, column_broadcast_at,
    broadcastTo_1b_ab_apply]
  rfl

/-- The sum of the two boxes' areas. -/
private theorem areas_at :
    k0_pay22 v35 v36 x2 (ix2 p q)
      = v35 (ix2 p (0 : Fin 1)) * v36 (ix2 p (0 : Fin 1)) + k0_pay15 x2 (ix2 (0 : Fin 1) q) * k0_pay16 x2 (ix2 (0 : Fin 1) q) := by
  unfold k0_pay22
  simp only [mulf_apply, addf_apply, column_broadcast_at, broadcastTo_1b_ab_apply]

/-- The cost from the class part, the L1 distance of the boxes and the generalized IoU (intersection over union
    minus the hull's excess over the union, over the hull). -/
private theorem cost_at :
    k0_pay23 v30 v33 v34 v35 v36 v39 v42 v45 v48 v52 v53 v54 v55 v58 v61 v64 v67 v87 v90 (ix2 p q)
      = (lit 0x40A00000#32
            * (((max (v33 (ix2 p (0 : Fin 1)) - v52 (ix2 (0 : Fin 1) q)) (-(v33 (ix2 p (0 : Fin 1)) - v52 (ix2 (0 : Fin 1) q)))
                  + max (v34 (ix2 p (0 : Fin 1)) - v53 (ix2 (0 : Fin 1) q)) (-(v34 (ix2 p (0 : Fin 1)) - v53 (ix2 (0 : Fin 1) q))))
                + max (v35 (ix2 p (0 : Fin 1)) - v54 (ix2 (0 : Fin 1) q)) (-(v35 (ix2 p (0 : Fin 1)) - v54 (ix2 (0 : Fin 1) q))))
              + max (v36 (ix2 p (0 : Fin 1)) - v55 (ix2 (0 : Fin 1) q)) (-(v36 (ix2 p (0 : Fin 1)) - v55 (ix2 (0 : Fin 1) q))))
          + lit 0x40000000#32 * v30 (ix2 p q))
        + lit 0x40000000#32
            * (lit 0x00000000#32
                - (Ideal.div (v87 (ix2 p q)) (v90 (ix2 p q) - v87 (ix2 p q))
                    - Ideal.div
                        (max (max (v45 (ix2 p (0 : Fin 1))) (v64 (ix2 (0 : Fin 1) q)) - min (v39 (ix2 p (0 : Fin 1))) (v58 (ix2 (0 : Fin 1) q))) (lit 0x00000000#32)
                            * max (max (v48 (ix2 p (0 : Fin 1))) (v67 (ix2 (0 : Fin 1) q)) - min (v42 (ix2 p (0 : Fin 1))) (v61 (ix2 (0 : Fin 1) q))) (lit 0x00000000#32)
                          - (v90 (ix2 p q) - v87 (ix2 p q)))
                        (max (max (v45 (ix2 p (0 : Fin 1))) (v64 (ix2 (0 : Fin 1) q)) - min (v39 (ix2 p (0 : Fin 1))) (v58 (ix2 (0 : Fin 1) q))) (lit 0x00000000#32)
                            * max (max (v48 (ix2 p (0 : Fin 1))) (v67 (ix2 (0 : Fin 1) q)) - min (v42 (ix2 p (0 : Fin 1))) (v61 (ix2 (0 : Fin 1) q))) (lit 0x00000000#32)))) := by
  unfold k0_pay23
  simp only [mulf_apply, addf_apply, subf_apply, divf_apply, maximumf_apply, minimumf_apply, absf_at, broadcast_apply,
    column_broadcast_at, broadcastTo_1b_ab_apply]
  rfl

end Boxes

/-- The body's output block at (p, q), as the pair cost of row p and column q of its input blocks. -/
theorem out_at (x0 : Vec Ideal S480x91 .f32) (x1 : Vec Ideal S480x4 .f32) (x2 : Vec Ideal S4x960 .f32) (x3 : Vec Ideal S91x960 .f32)
    (p : Fin 480) (q : Fin 960) :
    Gen.out0_4 (F := Ideal) x0 x1 x2 x3 (ix2 p q)
      = pairCost (∑ k : Fin 91, classTerm (x0 (ix2 p k)) * x3 (ix2 k q))
          (x1 (ix2 p (0 : Fin 4))) (x1 (ix2 p (1 : Fin 4))) (x1 (ix2 p (2 : Fin 4))) (x1 (ix2 p (3 : Fin 4)))
          (x2 (ix2 (0 : Fin 4) q)) (x2 (ix2 (1 : Fin 4) q)) (x2 (ix2 (2 : Fin 4) q)) (x2 (ix2 (3 : Fin 4) q)) := by
  unfold Gen.out0_4
  rw [View.canon_unit_zero offsets_zero]
  simp only [View.ld_unit_zero (S := S480x91) offsets_zero, View.ld_unit_zero (S := S480x4) offsets_zero,
    View.ld_unit_zero (S := S4x960) offsets_zero, View.ld_unit_zero (S := S91x960) offsets_zero]
  rw [cost_at, class_part_at, intersection_at, areas_at]
  simp only [query_col0, query_col1, query_col2, query_col3, target_row0, target_row1, target_row2, target_row3,
    query_lo_x, query_lo_y, query_hi_x, query_hi_y, target_lo_x, target_lo_y, target_hi_x, target_hi_y]
  rfl

end Cert.KernelIdeal.BodyValue

end
-- ==== Proof.KernelArray.lean ====
/-
  From blocks to the array. Grid point t stages rows 480 t … 480 t + 479 of the logits and of the query boxes, the
  whole transposed target boxes and the whole class indicator, and writes back rows 480 t … 480 t + 479 of the
  result; the 30 blocks tile the [14400, 960] result, and each written block is the restriction of ONE function of
  the staged arrays, the cost matrix `costOfStaged`.
-/
import proofs.«410341_j55362128445461_2_alg».proof.Proof.Gen.KernelIdeal.Frame
import proofs.«410341_j55362128445461_2_alg».proof.Proof.Spec
import proofs.«410341_j55362128445461_2_alg».proof.Proof.KernelBody
import Idealize.ShloMosaic.Lib.ValueIdx
import Idealize.ShloMosaic.Lib.Pipeline.Value

noncomputable section

open scoped BigOperators

namespace Cert.KernelIdeal.ArrayValue

open Cert.KernelIdeal Cert.KernelIdeal.Gen Cert.PairCost
open Idealize.ShloMosaic Idealize.ShloMosaic.TcCoe Idealize.ShloMosaic.ValueIdx Idealize.SL.Sem

variable (m : (ℓ : Loc nD τ sig) → Buf (Elt Ideal) ℓ)

/-! ## Where each block sits -/

/-- The block index of every window at every grid point: the row-block windows (logits, query boxes, result) sit at
    the same row block, which stays below 30, in column block 0; the target boxes and the class indicator are
    staged whole, at block (0, 0). -/
theorem block_index : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 29 ∧ win0_4.index t (1 : Fin 2) = 0 :=
  (by decide +kernel : ∀ t : Fin grid0.N, _)

/-- Every row block of the result is some grid point's. -/
theorem block_index_onto : ∀ b : Fin 30, ∃ t : Fin cfg0.N, win0_4.index t = ![b.val, 0] :=
  (by decide +kernel : ∀ b : Fin 30, ∃ t : Fin grid0.N, win0_4.index t = ![b.val, 0])

/-! ## The staged blocks as parts of the arrays -/

/-- Row p of the logits block at point t is row 480 b + p of the logits, b the point's row block. -/
theorem logits_block (c : Dev nD) (t : Fin cfg0.N) (p : Fin 480) (k : Fin 91) (r : Fin 14400)
    (hr : r.val = win0_4.index t (0 : Fin 2) * 480 + p.val) :
    (iblk m c 0 t : Vec Ideal S480x91 .f32) (ix2 p k) = (V m c main_v0 : S14400x91.Idx → EReal) (ix2 r k) := by
  obtain ⟨e00, e01, -, -, -, -, -, -, -, -⟩ := block_index t
  show V m c main_v0 (((cfg0.win 0).blk t).view.emb (ix2 p k)) = V m c main_v0 (ix2 r k)
  refine congrArg _ ?_
  funext a; apply Fin.ext
  match a with
  | ⟨0, _⟩ => show win0_0.index t (0 : Fin 2) * 480 + 1 * p.val = r.val; omega
  | ⟨1, _⟩ => show win0_0.index t (1 : Fin 2) * 91 + 1 * k.val = k.val; omega

/-- Row p of the query-box block at point t is row 480 b + p of the query boxes. -/
theorem boxes_block (c : Dev nD) (t : Fin cfg0.N) (p : Fin 480) (k : Fin 4) (r : Fin 14400)
    (hr : r.val = win0_4.index t (0 : Fin 2) * 480 + p.val) :
    (iblk m c 1 t : Vec Ideal S480x4 .f32) (ix2 p k) = (V m c main_v1 : S14400x4.Idx → EReal) (ix2 r k) := by
  obtain ⟨-, -, e10, e11, -, -, -, -, -, -⟩ := block_index t
  show V m c main_v1 (((cfg0.win 1).blk t).view.emb (ix2 p k)) = V m c main_v1 (ix2 r k)
  refine congrArg _ ?_
  funext a; apply Fin.ext
  match a with
  | ⟨0, _⟩ => show win0_1.index t (0 : Fin 2) * 480 + 1 * p.val = r.val; omega
  | ⟨1, _⟩ => show win0_1.index t (1 : Fin 2) * 4 + 1 * k.val = k.val; omega

/-- The target-box block at every point is the whole transposed target-box array. -/
theorem targets_block (c : Dev nD) (t : Fin cfg0.N) (k : Fin 4) (q : Fin 960) :
    (iblk m c 2 t : Vec Ideal S4x960 .f32) (ix2 k q) = (V m c main_v2 : S4x960.Idx → EReal) (ix2 k q) := by
  obtain ⟨-, -, -, -, e20, e21, -, -, -, -⟩ := block_index t
  show V m c main_v2 (((cfg0.win 2).blk t).view.emb (ix2 k q)) = V m c main_v2 (ix2 k q)
  refine congrArg _ ?_
  funext a; apply Fin.ext
  match a with
  | ⟨0, _⟩ => show win0_2.index t (0 : Fin 2) * 4 + 1 * k.val = k.val; omega
  | ⟨1, _⟩ => show win0_2.index t (1 : Fin 2) * 960 + 1 * q.val = q.val; omega

/-- The class-indicator block at every point is the whole class-indicator array. -/
theorem indicator_block (c : Dev nD) (t : Fin cfg0.N) (k : Fin 91) (q : Fin 960) :
    (iblk m c 3 t : Vec Ideal S91x960 .f32) (ix2 k q) = (V m c main_v9 : S91x960.Idx → EReal) (ix2 k q) := by
  obtain ⟨-, -, -, -, -, -, e30, e31, -, -⟩ := block_index t
  show V m c main_v9 (((cfg0.win 3).blk t).view.emb (ix2 k q)) = V m c main_v9 (ix2 k q)
  refine congrArg _ ?_
  funext a; apply Fin.ext
  match a with
  | ⟨0, _⟩ => show win0_3.index t (0 : Fin 2) * 91 + 1 * k.val = k.val; omega
  | ⟨1, _⟩ => show win0_3.index t (1 : Fin 2) * 960 + 1 * q.val = q.val; omega

/-! ## One written block -/

/-- An entry (p, q) of the block the body leaves is entry (r, q) of the cost matrix of four arrays, as soon as row
    p of the first two blocks is row r of the first two arrays and the last two blocks agree with the last two
    arrays on column q. -/
theorem out_eq_cost (X0 : S14400x91.Idx → EReal) (X1 : S14400x4.Idx → EReal) (X2 : S4x960.Idx → EReal) (X3 : S91x960.Idx → EReal)
    (x0 : Vec Ideal S480x91 .f32) (x1 : Vec Ideal S480x4 .f32) (x2 : Vec Ideal S4x960 .f32) (x3 : Vec Ideal S91x960 .f32)
    (p : Fin 480) (q : Fin 960) (r : Fin 14400)
    (h0 : ∀ k : Fin 91, x0 (ix2 p k) = X0 (ix2 r k))
    (h1 : ∀ k : Fin 4, x1 (ix2 p k) = X1 (ix2 r k))
    (h2 : ∀ k : Fin 4, x2 (ix2 k q) = X2 (ix2 k q))
    (h3 : ∀ k : Fin 91, x3 (ix2 k q) = X3 (ix2 k q)) :
    Gen.out0_4 (F := Ideal) x0 x1 x2 x3 (ix2 p q) = costOfStaged X0 X1 X2 X3 (ix2 r q) := by
  rw [BodyValue.out_at, h1, h1, h1, h1, h2, h2, h2, h2]
  simp only [h0, h3]
  rfl

/-- The block's entry (p, q) sits at row 480 b + p and column q of the result, b the point's row block. -/
theorem result_emb (t : Fin cfg0.N) (p : Fin 480) (q : Fin 960) (r : Fin 14400)
    (hr : r.val = win0_4.index t (0 : Fin 2) * 480 + p.val) :
    ((cfg0.win 4).blk t).view.emb (ix2 p q) = (ix2 r q : S14400x960.Idx) := by
  obtain ⟨-, -, -, -, -, -, -, -, e40, e41⟩ := block_index t
  funext a; apply Fin.ext
  match a with
  | ⟨0, _⟩ => show win0_4.index t (0 : Fin 2) * 480 + 1 * p.val = r.val; omega
  | ⟨1, _⟩ => show win0_4.index t (1 : Fin 2) * 960 + 1 * q.val = q.val; omega

/-- What the body leaves at point t, entry by entry, is the cost matrix of the staged arrays read through the
    point's block of the result. -/
theorem block_entry (c : Dev nD) (t : Fin cfg0.N) (j : S480x960.Idx) :
    Gen.out0_4 (F := Ideal) (iblk m c 0 t) (iblk m c 1 t) (iblk m c 2 t) (iblk m c 3 t) j
      = costOfStaged (V m c main_v0) (V m c main_v1) (V m c main_v2) (V m c main_v9) (((cfg0.win 4).blk t).view.emb j) := by
  obtain ⟨p, q, rfl⟩ : ∃ (p : Fin 480) (q : Fin 960), j = ix2 p q := ⟨j 0, j 1, eq_ix2 j⟩
  have hb : win0_4.index t (0 : Fin 2) ≤ 29 := (block_index t).2.2.2.2.2.2.2.2.1
  have hp : p.val < 480 := p.isLt
  rw [result_emb t p q ⟨win0_4.index t (0 : Fin 2) * 480 + p.val, by omega⟩ rfl]
  exact out_eq_cost _ _ _ _ _ _ _ _ p q _
    (fun k => logits_block m c t p k _ rfl) (fun k => boxes_block m c t p k _ rfl)
    (fun k => targets_block m c t k q) (fun k => indicator_block m c t k q)

/-- WHAT POINT t WRITES BACK is block t of the cost matrix of the arrays the region finds. -/
theorem flushed_eq (c : Dev nD) (t : Fin cfg0.N) :
    (Gen.dats (F := Ideal) m 0 c).flushed 4 t
      = ((cfg0.win 4).blk t).view.read (Elt Ideal)
          (costOfStaged (V m c main_v0) (V m c main_v1) (V m c main_v2) (V m c main_v9)) := by
  show (cfg0.win 4).cut (grid0.coords t) ((dats m 0 c).after 4 t) = _
  rw [after0_4]
  funext j
  exact block_entry m c t j

/-! ## The blocks tile the result -/

/-- An index of the result is in point t's block iff each coordinate is in the block's range on its axis. -/
theorem mem_blk (t : Fin cfg0.N) (i : S14400x960.Idx) :
    i ∈ ((cfg0.win 4).blk t).view.set ↔ ∀ a : Fin 2, win0_4.index t a * S480x960.size a ≤ (i a).val ∧ (i a).val < win0_4.index t a * S480x960.size a + S480x960.size a := by
  show i ∈ ((View.whole main_v10).slice (win0_4.rect t)).set ↔ _
  rw [View.set_slice_whole, Rect.mem_set_unit]
  exact Iff.rfl

/-- Row r of the result is in the block of the point whose row block is r / 480. -/
theorem cover (i : S14400x960.Idx) :
    ∃ t : Fin cfg0.N, (cfg0.win 4).flush t = true ∧ i ∈ ((cfg0.win 4).blk t).view.set := by
  have hi0 : (i 0).val < 14400 := (i 0).isLt
  have hi1 : (i 1).val < 960 := (i 1).isLt
  obtain ⟨t, ht⟩ := block_index_onto ⟨(i 0).val / 480, by omega⟩
  have q0 : win0_4.index t (0 : Fin 2) = (i 0).val / 480 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 480 ≤ (i 0).val ∧ (i 0).val < win0_4.index t (0 : Fin 2) * 480 + 480; omega
  | ⟨1, _⟩ => show win0_4.index t (1 : Fin 2) * 960 ≤ (i 1).val ∧ (i 1).val < win0_4.index t (1 : Fin 2) * 960 + 960; omega

/-- The result array after the region is the cost matrix of the arrays the region finds. -/
theorem final (c : Dev nD) :
    (Gen.dats (F := Ideal) m 0 c).arrAt 4 cfg0.N
      = costOfStaged (Gen.V m c main_v0) (Gen.V m c main_v1) (Gen.V m c main_v2) (Gen.V m c main_v9) :=
  (dats m 0 c).arrAt_eq_of_cover 4 (costOfStaged (V m c main_v0) (V m c main_v1) (V m c main_v2) (V m c main_v9))
    (fun t _ => flushed_eq m c t) cover

end Cert.KernelIdeal.ArrayValue

end
-- ==== Proof.KernelRun.lean ====
/-
  The idealized kernel's run with its result named. Before the region the host flattens the logits and the query
  boxes to [14400, ·], transposes the target boxes to [4, 960] and builds the class indicator [91, 960] (entry (k, j)
  is 1 if the word of k equals target j's class word, else 0); after it the host reshapes the [14400, 960] cost
  matrix to [16, 900, 960]. So the result is the reshaped cost matrix of the flattened inputs.
-/
import proofs.«410341_j55362128445461_2_alg».proof.Proof.Gen.KernelIdeal.Frame
import proofs.«410341_j55362128445461_2_alg».proof.Proof.Spec
import proofs.«410341_j55362128445461_2_alg».proof.Proof.KernelArray
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.RunValue

open Cert.KernelIdeal Cert.KernelIdeal.Gen Cert.PairCost
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result the idealized kernel ends with, as a function of the launch memory: the cost matrix of the flattened
    logits and query boxes, the class words and the target boxes, reshaped to [16, 900, 960]. -/
def result (c : Dev nD) : Buf (Elt Ideal) ((c.tc : Thread nD τ).loc main_v11) :=
  shapeCast S16x900x960
    (costMatrix (shapeCast S14400x91 (m ((c.tc : Thread nD τ).loc main_arg0)) shapeCasts_S16x900x91_S14400x91)
      (shapeCast S14400x4 (m ((c.tc : Thread nD τ).loc main_arg1)) shapeCasts_S16x900x4_S14400x4)
      (m ((c.tc : Thread nD τ).loc main_arg2)) (m ((c.tc : Thread nD τ).loc main_arg3)))
    shapeCasts_S14400x960_S16x900x960

/-! ## The arrays the region finds, from the launch memory -/

/-- The logits the region finds are the launch logits flattened to [14400, 91]. -/
theorem V_v0 (c : Dev nD) :
    (Gen.V m c main_v0 : S14400x91.Idx → EReal)
      = shapeCast S14400x91 (m ((c.tc : Thread nD τ).loc main_arg0)) shapeCasts_S16x900x91_S14400x91 := by
  show StableHlo.after hostOps0 (fun b => m (c, b)) (Proc.devRef .tc main_v0) = _
  after_results
  rfl

/-- The query boxes the region finds are the launch query boxes flattened to [14400, 4]. -/
theorem V_v1 (c : Dev nD) :
    (Gen.V m c main_v1 : S14400x4.Idx → EReal)
      = shapeCast S14400x4 (m ((c.tc : Thread nD τ).loc main_arg1)) shapeCasts_S16x900x4_S14400x4 := by
  show StableHlo.after hostOps0 (fun b => m (c, b)) (Proc.devRef .tc main_v1) = _
  after_results
  rfl

/-- The target boxes the region finds are the launch target boxes transposed to [4, 960]. -/
theorem V_v2 (c : Dev nD) :
    (Gen.V m c main_v2 : S4x960.Idx → EReal)
      = transpose S4x960 [1, 0] (m ((c.tc : Thread nD τ).loc main_arg3)) transposes_S960x4_S4x960_1_0 := by
  show StableHlo.after hostOps0 (fun b => m (c, b)) (Proc.devRef .tc main_v2) = _
  after_results

/-- The class indicator the region finds: the comparison of the class numbers spread along the rows with the class
    words spread along the columns, read as 0 / 1. -/
theorem V_v9 (c : Dev nD) :
    (Gen.V m c main_v9 : S91x960.Idx → EReal)
      = uitofp (F := Ideal) .f32 (cmpi .eq
          (broadcastInDim S91x960 ![0, 1] bcast_S91x1_S91x960_0_1
            (broadcastInDim S91x1 ![0] bcast_S91_S91x1_0 (iotaInDim S91 32 0)))
          (broadcastInDim S91x960 ![0, 1] bcast_S1x960_S91x960_0_1
            (broadcastInDim S1x960 ![1] bcast_S960_S1x960_1 (m ((c.tc : Thread nD τ).loc main_arg2))))) := by
  show StableHlo.after hostOps0 (fun b => m (c, b)) (Proc.devRef .tc main_v9) = _
  after_results

/-! ## The class indicator at an entry -/

/-- Entry (k, q) of the class indicator is 1 if the word of k is target q's class word, else 0. -/
theorem indicator_apply (ids : S960.Idx → BitVec 32) (k : Fin 91) (q : Fin 960) :
    (uitofp (F := Ideal) .f32 (cmpi .eq
        (broadcastInDim S91x960 ![0, 1] bcast_S91x1_S91x960_0_1
          (broadcastInDim S91x1 ![0] bcast_S91_S91x1_0 (iotaInDim S91 32 0)))
        (broadcastInDim S91x960 ![0, 1] bcast_S1x960_S91x960_0_1
          (broadcastInDim S1x960 ![1] bcast_S960_S1x960_1 ids))) : S91x960.Idx → EReal) (ix2 k q)
      = oneHot k (ids (ix1 q)) := by
  have hrow : broadcastInDim S91x960 ![0, 1] bcast_S91x1_S91x960_0_1
      (broadcastInDim S91x1 ![0] bcast_S91_S91x1_0 (iotaInDim S91 32 0)) (ix2 k q) = BitVec.ofNat 32 k.val := by
    refine (broadcastInDim_apply _ _ _ (ix2 k q) (ix2 k (0 : Fin 1)) (fun a => match a with | ⟨0, _⟩ => rfl | ⟨1, _⟩ => rfl)).trans ?_
    refine (broadcastInDim_apply _ _ _ (ix2 k (0 : Fin 1)) (ix1 k) (fun a => match a with | ⟨0, _⟩ => rfl)).trans ?_
    rfl
  have hcol : broadcastInDim S91x960 ![0, 1] bcast_S1x960_S91x960_0_1
      (broadcastInDim S1x960 ![1] bcast_S960_S1x960_1 ids) (ix2 k q) = ids (ix1 q) := by
    refine (broadcastInDim_apply _ _ _ (ix2 k q) (ix2 (0 : Fin 1) q) (fun a => match a with | ⟨0, _⟩ => rfl | ⟨1, _⟩ => rfl)).trans ?_
    exact broadcastInDim_apply _ _ _ (ix2 (0 : Fin 1) q) (ix1 q) (fun a => match a with | ⟨0, _⟩ => rfl)
  show (((IntOp.cmpi .eq _ _).toNat : ℝ) : EReal) = _
  rw [hrow, hcol]
  rfl

/-! ## The staged cost matrix is the cost matrix -/

/-- With the target boxes transposed and the indicator's entry (k, q) the indicator of "k is target q's class word",
    the cost matrix of the staged arrays is the cost matrix: the transpose read at (a, q) is the target box's entry
    (q, a), and the sum against the indicator's column q is the class sum at target q's class word. -/
theorem costOfStaged_eq (X0 : S14400x91.Idx → EReal) (X1 : S14400x4.Idx → EReal) (ids : S960.Idx → BitVec 32)
    (T : S960x4.Idx → EReal) (X3 : S91x960.Idx → EReal)
    (h3 : ∀ (k : Fin 91) (q : Fin 960), X3 (ix2 k q) = oneHot k (ids (ix1 q))) :
    costOfStaged X0 X1 (transpose S4x960 [1, 0] T transposes_S960x4_S4x960_1_0) X3 = costMatrix X0 X1 ids T := by
  funext y
  obtain ⟨p, q, rfl⟩ : ∃ (p : Fin 14400) (q : Fin 960), y = ix2 p q := ⟨y 0, y 1, eq_ix2 y⟩
  show pairCost (∑ k : Fin 91, classTerm (X0 (ix2 p k)) * X3 (ix2 k q))
      (X1 (ix2 p (0 : Fin 4))) (X1 (ix2 p (1 : Fin 4))) (X1 (ix2 p (2 : Fin 4))) (X1 (ix2 p (3 : Fin 4)))
      (transpose S4x960 [1, 0] T transposes_S960x4_S4x960_1_0 (ix2 (0 : Fin 4) q))
      (transpose S4x960 [1, 0] T transposes_S960x4_S4x960_1_0 (ix2 (1 : Fin 4) q))
      (transpose S4x960 [1, 0] T transposes_S960x4_S4x960_1_0 (ix2 (2 : Fin 4) q))
      (transpose S4x960 [1, 0] T transposes_S960x4_S4x960_1_0 (ix2 (3 : Fin 4) q))
    = pairCost (∑ k : Fin 91, classTerm (X0 (ix2 p k)) * oneHot k (ids (ix1 q)))
      (X1 (ix2 p (0 : Fin 4))) (X1 (ix2 p (1 : Fin 4))) (X1 (ix2 p (2 : Fin 4))) (X1 (ix2 p (3 : Fin 4)))
      (T (ix2 q (0 : Fin 4))) (T (ix2 q (1 : Fin 4))) (T (ix2 q (2 : Fin 4))) (T (ix2 q (3 : Fin 4)))
  rw [transpose_ix2_apply T transposes_S960x4_S4x960_1_0 (0 : Fin 4) q,
    transpose_ix2_apply T transposes_S960x4_S4x960_1_0 (1 : Fin 4) q,
    transpose_ix2_apply T transposes_S960x4_S4x960_1_0 (2 : Fin 4) q,
    transpose_ix2_apply T transposes_S960x4_S4x960_1_0 (3 : Fin 4) q]
  refine congrArg (fun s => pairCost s _ _ _ _ _ _ _ _) ?_
  exact Finset.sum_congr rfl fun k _ => congrArg (fun t => classTerm (X0 (ix2 p k)) * t) (h3 k q)

/-! ## The result after the host's last reshape -/

/-- What the lines after the region leave at the result: the cost matrix of the flattened inputs, reshaped. -/
theorem tail_value (c : Dev nD) :
    Pipeline.afterTail₀ cfgs (Gen.dats (F := Ideal) m) 0 (Gen.V0 m) [hostOps1] c main_v11 = result m c := by
  unfold Pipeline.afterTail₀
  show StableHlo.after hostOps1 _ (Proc.devRef .tc main_v11) = _
  after_results
  have hA : Pipeline.withArrays (cfgs 0).spec c (V0 m c) (fun w => (dats m 0 c).arrAt w (cfgs 0).N) (Proc.devRef .tc main_v10)
      = costMatrix (shapeCast S14400x91 (m ((c.tc : Thread nD τ).loc main_arg0)) shapeCasts_S16x900x91_S14400x91)
          (shapeCast S14400x4 (m ((c.tc : Thread nD τ).loc main_arg1)) shapeCasts_S16x900x4_S14400x4)
          (m ((c.tc : Thread nD τ).loc main_arg2)) (m ((c.tc : Thread nD τ).loc main_arg3)) := by
    refine ((Pipeline.withArrays_arr spec0 launch0.win.arr_inj c _ _ 4).trans (ArrayValue.final m c)).trans ?_
    rw [V_v0, V_v1, V_v2]
    exact costOfStaged_eq _ _ _ _ _ (fun k q => by rw [V_v9]; exact indicator_apply _ k q)
  rw [hA]
  rfl

/-- Every weakly fair execution of the idealized kernel's @main terminates with the result at `result` and the
    arguments unchanged. -/
theorem run_value :
    θ_run (defs (F := Ideal)) (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ⟨?_, ?_, ?_, ?_, ?_⟩) (Gen.run_main m ρ)
  · exact ((h c).2 main_v11 (Pipeline.mem_restRefs_of main_v11 (by decide) (by decide))).trans (tail_value m c)
  · exact ((h c).2 main_arg0 (Pipeline.mem_restRefs_of main_arg0 (by decide) (by decide))).trans (Gen.W_main_arg0 m (Gen.dats m) c)
  · exact ((h c).2 main_arg1 (Pipeline.mem_restRefs_of main_arg1 (by decide) (by decide))).trans (Gen.W_main_arg1 m (Gen.dats m) c)
  · exact ((h c).2 main_arg2 (Pipeline.mem_restRefs_of main_arg2 (by decide) (by decide))).trans (Gen.W_main_arg2 m (Gen.dats m) c)
  · exact ((h c).2 main_arg3 (Pipeline.mem_restRefs_of main_arg3 (by decide) (by decide))).trans (Gen.W_main_arg3 m (Gen.dats m) c)

end Cert.KernelIdeal.RunValue

end
-- ==== Proof.Consts.lean ====
/-
  The four float words whose exact value the equivalence uses, read as extended reals: +0.0 is 0, 1.0 is 1, 2.0 is 2
  and 0.5 is 1/2. Every other literal of the two programs (the focal weights 0.75 and 0.25, the cost weights 5 and 2,
  the f32 word nearest 1e-8) occurs as the same word on both sides and is never evaluated.
-/
import Idealize.ShloMosaic.PureOps.Ideal
import Idealize.ShloMosaic.PureOps.Ideal.Laws

noncomputable section

namespace Cert.Consts

open Idealize.ShloMosaic

/-- The word of +0.0 denotes 0. -/
theorem ofBits_zero : Ideal.ofBits .f32 0x00000000#32 = 0 := Ideal.ofBits_zero_f32

/-- The word of 1.0 denotes 1. -/
theorem ofBits_one : Ideal.ofBits .f32 0x3F800000#32 = 1 := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

end Cert.Consts

end
-- ==== Proof.RefClass.lean ====
/-
  The reference's class term. The reference forms the two focal terms for all 91 classes of a row and picks, for
  target j, column `tgt_ids[j]` of each by a gather: the class word is first wrapped (a negative word gets 91
  added), then clamped into [0, 90] by the gather itself. For a class word in [0, 91) neither changes it, so the
  gathered difference pos - neg is the class term of the logit at that class, which is the sum over k of the k-th
  class term times the indicator "k is the class word". The reference spells the sigmoid as 1 / (1 + e^(-x)),
  the squares as powers with exponent 2.0 and the negations as negations; on real numbers these are the kernel's
  spellings.
-/
import proofs.«410341_j55362128445461_2_alg».proof.Proof.Gen.ReferenceIdeal.Read
import proofs.«410341_j55362128445461_2_alg».proof.Proof.Spec
import proofs.«410341_j55362128445461_2_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefClass

open Cert.ReferenceIdeal Cert.ReferenceIdeal.Read Cert.PairCost
open Idealize.ShloMosaic Idealize.ShloMosaic.ValueIdx

/-! ## The column gather read at an index -/

/-- Entry (p, q) of the column gather: row p of the operand at the start index idx[q, 0], read as a signed integer
    and clamped into [0, 90]. On axis 0 the operand index is the result's offset coordinate p (no start, no batch);
    on axis 1, a collapsed axis, it is the clamped start alone. -/
theorem gather_col_apply {α : Type} (x : S14400x91.Idx → α) (idx : IVec S960x1 32) (p : Fin 14400) (q : Fin 960) :
    Host.gather gather_S14400x91_S960x1_S14400x960_0_1_n_n_1_1_144001 x idx (ix2 p q)
      = x (ix2 p ⟨min (idx (ix2 q (0 : Fin 1))).toInt.toNat 90, by omega⟩) := by
  unfold Host.gather
  refine congrArg x ?_
  funext a
  refine Fin.ext ?_
  match a with
  | ⟨0, _⟩ =>
    show GatherDims.start gather_S14400x91_S960x1_S14400x960_0_1_n_n_1_1_144001 (ix2 p q) idx 0
        + GatherDims.batchCoord gather_S14400x91_S960x1_S14400x960_0_1_n_n_1_1_144001 (ix2 p q) 0
        + GatherDims.offCoord gather_S14400x91_S960x1_S14400x960_0_1_n_n_1_1_144001 (ix2 p q) 0 = p.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show GatherDims.start gather_S14400x91_S960x1_S14400x960_0_1_n_n_1_1_144001 (ix2 p q) idx 1
        + GatherDims.batchCoord gather_S14400x91_S960x1_S14400x960_0_1_n_n_1_1_144001 (ix2 p q) 1
        + GatherDims.offCoord gather_S14400x91_S960x1_S14400x960_0_1_n_n_1_1_144001 (ix2 p q) 1
        = min (idx (ix2 q (0 : Fin 1))).toInt.toNat 90
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S14400x91_S960x1_S14400x960_0_1_n_n_1_1_144001.startIndexMap
      from List.mem_singleton.mpr rfl)]
    have hsi : gather_S14400x91_S960x1_S14400x960_0_1_n_n_1_1_144001.siIdx (ix2 p q)
        ⟨List.idxOf (1 : Fin 2) gather_S14400x91_S960x1_S14400x960_0_1_n_n_1_1_144001.startIndexMap,
          List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

/-! ## The reference's spelling of the two focal terms, as functions of one logit -/

/-- The reference's sigmoid: 1 / (1 + e^(-x)), both ones the word of 1.0. -/
def refSig (x : EReal) : EReal := Ideal.div (lit 0x3F800000#32) (lit 0x3F800000#32 + Ideal.exp (-x))

/-- The reference's negative focal term: 0.75 * p^2.0 * -(log (1 - p + eps)) at p the sigmoid. -/
def refNeg (x : EReal) : EReal :=
  (lit 0x3F400000#32 * Ideal.pow (refSig x) (lit 0x40000000#32))
    * (-(Ideal.log ((lit 0x3F800000#32 - refSig x) + lit 0x322BCC77#32)))

/-- The reference's positive focal term: 0.25 * (1 - p)^2.0 * -(log (p + eps)) at p the sigmoid. -/
def refPos (x : EReal) : EReal :=
  (lit 0x3E800000#32 * Ideal.pow (lit 0x3F800000#32 - refSig x) (lit 0x40000000#32))
    * (-(Ideal.log (refSig x + lit 0x322BCC77#32)))

/-- With the word of 1.0 read as 1 the reference's sigmoid is the sigmoid. -/
theorem refSig_eq (x : EReal) : refSig x = Ideal.logistic x := by
  unfold refSig
  show Ideal.div (Ideal.ofBits .f32 0x3F800000#32) (Ideal.ofBits .f32 0x3F800000#32 + Ideal.exp (-x)) = _
  rw [Cert.Consts.ofBits_one]
  rfl

/-- A real number to the power 2.0 is its product with itself. -/
theorem pow_two_real (r : ℝ) : Ideal.pow (r : EReal) (lit 0x40000000#32) = (r : EReal) * (r : EReal) := by
  show Ideal.pow (r : EReal) (Ideal.ofBits .f32 0x40000000#32) = _
  rw [Cert.Consts.ofBits_two, Ideal.pow_coe_coe, ← EReal.coe_mul]
  refine congrArg _ ?_
  show r ^ (2 : ℝ) = r * r
  rw [Real.rpow_two, sq]

/-- 1 - s at a real s is the real number 1 - s. -/
theorem one_sub_real (s : ℝ) : lit 0x3F800000#32 - (s : EReal) = ((1 - s : ℝ) : EReal) := by
  show Ideal.ofBits .f32 0x3F800000#32 - (s : EReal) = _
  rw [Cert.Consts.ofBits_one, ← EReal.coe_one, ← EReal.coe_sub]

/-- A negation is the difference from the word of +0.0. -/
theorem neg_eq_zero_sub (a : EReal) : -a = lit 0x00000000#32 - a := by
  show -a = Ideal.ofBits .f32 0x00000000#32 - a
  rw [Cert.Consts.ofBits_zero, zero_sub]

/-- At a real logit the reference's negative term is the specification's. -/
theorem refNeg_eq (r : ℝ) : refNeg (r : EReal) = negTerm (Ideal.logistic (r : EReal)) := by
  unfold refNeg negTerm
  rw [refSig_eq, Ideal.logistic_coe, pow_two_real, neg_eq_zero_sub]

/-- At a real logit the reference's positive term is the specification's. -/
theorem refPos_eq (r : ℝ) : refPos (r : EReal) = posTerm (Ideal.logistic (r : EReal)) := by
  unfold refPos posTerm
  rw [refSig_eq, Ideal.logistic_coe, one_sub_real, pow_two_real, neg_eq_zero_sub]

/-- At a real logit the difference of the reference's two terms is the class term. -/
theorem refPos_sub_refNeg (r : ℝ) : refPos (r : EReal) - refNeg (r : EReal) = classTerm (r : EReal) := by
  rw [refPos_eq, refNeg_eq]; rfl

/-! ## The reference's stages read at an index -/

/-- Stages %1 to %6: the reference's sigmoid of the logit. -/
theorem v6_at (x0 : FVec Ideal S16x900x91 .f32) (i : S14400x91.Idx) :
    val_main_v6 (F := Ideal) x0 i = refSig (val_main_v0 (F := Ideal) x0 i) := by
  rw [val_main_v6_apply, val_main_v5_apply, val_main_cst_0_apply, val_main_v4_apply, val_main_v3_apply,
    val_main_cst_apply, val_main_v2_apply, val_main_v1_apply]
  rfl

/-- Stages %8 to %18: the reference's negative focal term of the logit. -/
theorem v18_at (x0 : FVec Ideal S16x900x91 .f32) (i : S14400x91.Idx) :
    val_main_v18 (F := Ideal) x0 i = refNeg (val_main_v0 (F := Ideal) x0 i) := by
  rw [val_main_v18_apply, val_main_v11_apply, val_main_v10_apply, val_main_cst_2_apply, val_main_v9_apply,
    val_main_v8_apply, val_main_cst_1_apply, val_main_v17_apply, val_main_v16_apply, val_main_v15_apply,
    val_main_v13_apply, val_main_v12_apply, val_main_cst_3_apply, val_main_v14_apply, val_main_cst_4_apply, v6_at]
  rfl

/-- Stages %19 to %29: the reference's positive focal term of the logit. -/
theorem v29_at (x0 : FVec Ideal S16x900x91 .f32) (i : S14400x91.Idx) :
    val_main_v29 (F := Ideal) x0 i = refPos (val_main_v0 (F := Ideal) x0 i) := by
  rw [val_main_v29_apply, val_main_v24_apply, val_main_v23_apply, val_main_cst_7_apply, val_main_v22_apply,
    val_main_v20_apply, val_main_v19_apply, val_main_cst_5_apply, val_main_v21_apply, val_main_cst_6_apply,
    val_main_v28_apply, val_main_v27_apply, val_main_v26_apply, val_main_v25_apply, val_main_cst_8_apply, v6_at]
  rfl

/-! ## The class word through the wrap and the clamp -/

/-- A class word that is not negative is kept by "add 91 if negative". -/
theorem wrap_id (w : BitVec 32) (h0 : 0 ≤ w.toInt) :
    Scalar.select (IntOp.cmpi .slt w 0#32) (IntOp.addi w 91#32) w = w := by
  have h : IntOp.cmpi .slt w 0#32 = 0#1 := by
    have hs : w.slt 0#32 = false := by
      rw [Bool.eq_false_iff]
      intro hlt
      rw [BitVec.slt_iff_toInt_lt] at hlt
      have hz : (0#32 : BitVec 32).toInt = 0 := by decide
      omega
    simp only [IntOp.cmpi, hs]
    rfl
  rw [h, select_zero]

/-- A class word in [0, 91), read signed and clamped into [0, 90], is its own value. -/
theorem clamp_id (w : BitVec 32) (h0 : 0 ≤ w.toInt) (h1 : w.toInt < 91) : min w.toInt.toNat 90 = w.toNat := by
  have hlt := w.isLt
  have hc := BitVec.toInt_eq_toNat_cond w
  split at hc <;> omega

/-- Stages %30 to %35: the first gather's start index of target q is its class word. -/
theorem v35_at (x2 : IVec S960 32) (hid : ∀ j, 0 ≤ (x2 j).toInt ∧ (x2 j).toInt < 91) (q : Fin 960) :
    val_main_v35 (F := Ideal) x2 (ix2 q (0 : Fin 1)) = x2 (ix1 q) := by
  have hi : idx_main_v35 (ix2 q (0 : Fin 1)) = ix1 q := by
    funext a
    match a with
    | ⟨0, _⟩ => rfl
  rw [val_main_v35_apply, hi, val_main_v34_apply, val_main_v31_apply, val_main_v33_apply, val_main_v30_apply,
    val_main_c_apply, val_main_v32_apply, val_main_c_9_apply]
  exact wrap_id _ (hid _).1

/-- Stages %37 to %42: the second gather's start index of target q is its class word. -/
theorem v42_at (x2 : IVec S960 32) (hid : ∀ j, 0 ≤ (x2 j).toInt ∧ (x2 j).toInt < 91) (q : Fin 960) :
    val_main_v42 (F := Ideal) x2 (ix2 q (0 : Fin 1)) = x2 (ix1 q) := by
  have hi : idx_main_v42 (ix2 q (0 : Fin 1)) = ix1 q := by
    funext a
    match a with
    | ⟨0, _⟩ => rfl
  rw [val_main_v42_apply, hi, val_main_v41_apply, val_main_v38_apply, val_main_v40_apply, val_main_v37_apply,
    val_main_c_10_apply, val_main_v39_apply, val_main_c_11_apply]
  exact wrap_id _ (hid _).1

/-! ## The sum against the indicator -/

/-- The indicator at the class word's own class is 1. -/
theorem oneHot_self (w : BitVec 32) (h : w.toNat < 91) : oneHot ⟨w.toNat, h⟩ w = 1 := by
  unfold oneHot
  have hc : IntOp.cmpi .eq (BitVec.ofNat 32 w.toNat) w = 1#1 := by
    simp [IntOp.cmpi]
  rw [hc]
  simp

/-- The indicator at any other class is 0. -/
theorem oneHot_ne (k : Fin 91) (w : BitVec 32) (h : k.val ≠ w.toNat) : oneHot k w = 0 := by
  unfold oneHot
  have hne : BitVec.ofNat 32 k.val ≠ w := by
    intro he
    apply h
    rw [← he, BitVec.toNat_ofNat]
    have := k.isLt
    omega
  have hb : (BitVec.ofNat 32 k.val == w) = false := beq_eq_false_iff_ne.mpr hne
  have hc : IntOp.cmpi .eq (BitVec.ofNat 32 k.val) w = 0#1 := by
    simp only [IntOp.cmpi, hb]
    rfl
  rw [hc]
  simp

/-- The sum against the indicator has one non-zero term, the class term at the class word. -/
theorem classSum_eq (row : Fin 91 → EReal) (w : BitVec 32) (h : w.toNat < 91) :
    classSum row w = classTerm (row ⟨w.toNat, h⟩) := by
  unfold classSum
  rw [Finset.sum_eq_single (⟨w.toNat, h⟩ : Fin 91)]
  · rw [oneHot_self, mul_one]
  · intro k _ hk
    rw [oneHot_ne k w (fun he => hk (Fin.ext he)), mul_zero]
  · intro hn
    exact absurd (Finset.mem_univ _) hn

/-- The reference's class cost at (p, q): the class term selected by target q's class word from row p's logits. -/
theorem class_at (x0 : FVec Ideal S16x900x91 .f32) (x2 : IVec S960 32)
    (hfin0 : ∀ i, ∃ r : ℝ, x0 i = (r : EReal)) (hid : ∀ j, 0 ≤ (x2 j).toInt ∧ (x2 j).toInt < 91)
    (p : Fin 14400) (q : Fin 960) :
    val_main_v44 (F := Ideal) x0 x2 (ix2 p q)
      = classSum (fun k => val_main_v0 (F := Ideal) x0 (ix2 p k)) (x2 (ix1 q)) := by
  obtain ⟨h0, h1⟩ := hid (ix1 q)
  have hcl := clamp_id _ h0 h1
  have hw : (x2 (ix1 q)).toNat < 91 := by omega
  -- the gathered column of either gather is the class word's
  have hk35 : (⟨min (val_main_v35 (F := Ideal) x2 (ix2 q (0 : Fin 1))).toInt.toNat 90, by omega⟩ : Fin 91)
      = ⟨(x2 (ix1 q)).toNat, hw⟩ := by
    refine Fin.ext ?_
    show min (val_main_v35 (F := Ideal) x2 (ix2 q (0 : Fin 1))).toInt.toNat 90 = (x2 (ix1 q)).toNat
    rw [v35_at x2 hid, hcl]
  have hk42 : (⟨min (val_main_v42 (F := Ideal) x2 (ix2 q (0 : Fin 1))).toInt.toNat 90, by omega⟩ : Fin 91)
      = ⟨(x2 (ix1 q)).toNat, hw⟩ := by
    refine Fin.ext ?_
    show min (val_main_v42 (F := Ideal) x2 (ix2 q (0 : Fin 1))).toInt.toNat 90 = (x2 (ix1 q)).toNat
    rw [v42_at x2 hid, hcl]
  have e36 : val_main_v36 (F := Ideal) x0 x2 (ix2 p q)
      = refPos (val_main_v0 (F := Ideal) x0 (ix2 p ⟨(x2 (ix1 q)).toNat, hw⟩)) := by
    unfold val_main_v36
    rw [gather_col_apply, v29_at]
    exact congrArg (fun k => refPos (val_main_v0 (F := Ideal) x0 (ix2 p k))) hk35
  have e43 : val_main_v43 (F := Ideal) x0 x2 (ix2 p q)
      = refNeg (val_main_v0 (F := Ideal) x0 (ix2 p ⟨(x2 (ix1 q)).toNat, hw⟩)) := by
    unfold val_main_v43
    rw [gather_col_apply, v18_at]
    exact congrArg (fun k => refNeg (val_main_v0 (F := Ideal) x0 (ix2 p k))) hk42
  -- the logit at that entry is a real number
  obtain ⟨r, hr⟩ : ∃ r : ℝ, val_main_v0 (F := Ideal) x0 (ix2 p ⟨(x2 (ix1 q)).toNat, hw⟩) = (r : EReal) := by
    rw [val_main_v0_apply]
    exact hfin0 _
  rw [classSum_eq _ _ hw, val_main_v44_apply]
  show val_main_v36 (F := Ideal) x0 x2 (ix2 p q) - val_main_v43 (F := Ideal) x0 x2 (ix2 p q) = _
  rw [e36, e43]
  show _ = classTerm (val_main_v0 (F := Ideal) x0 (ix2 p ⟨(x2 (ix1 q)).toNat, hw⟩))
  rw [hr]
  exact refPos_sub_refNeg r

end Cert.ReferenceIdeal.RefClass

end
-- ==== Proof.RefL1.lean ====
/-
  The reference's L1 box term: the sum over the four box coordinates of |query - target|, which the reference forms
  as 0 plus a sum over a length-4 axis of a [14400, 960, 4] array of absolute differences; |a| is max a (-a). The sum
  of four terms is their sum from the left, and 0 plus it is it.
-/
import proofs.«410341_j55362128445461_2_alg».proof.Proof.Gen.ReferenceIdeal.Read
import proofs.«410341_j55362128445461_2_alg».proof.Proof.Spec
import proofs.«410341_j55362128445461_2_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefL1

open Cert.ReferenceIdeal Cert.ReferenceIdeal.Read Cert.PairCost
open Idealize.ShloMosaic Idealize.ShloMosaic.ValueIdx

/-- One entry of the [14400, 960, 4] array of absolute differences: at (p, q, k) both broadcasts read coordinate k of
    query box p and of target box q, and |a| is max a (-a). -/
private theorem absdiff_at (x1 : FVec Ideal S16x900x4 .f32) (x3 : FVec Ideal S960x4 .f32) (p : Fin 14400) (q : Fin 960)
    (k : Fin 4) :
    val_main_v50 (F := Ideal) x1 x3 (ix3 p q k)
      = max (val_main_v7 (F := Ideal) x1 (ix2 p k) - x3 (ix2 q k))
          (-(val_main_v7 (F := Ideal) x1 (ix2 p k) - x3 (ix2 q k))) := by
  have hq : idx_main_v45 (idx_main_v47 (ix3 p q k)) = ix2 p k :=
    funext fun a => Fin.ext (by match a with | ⟨0, _⟩ => rfl | ⟨1, _⟩ => rfl)
  have ht : idx_main_v46 (idx_main_v48 (ix3 p q k)) = ix2 q k :=
    funext fun a => Fin.ext (by match a with | ⟨0, _⟩ => rfl | ⟨1, _⟩ => rfl)
  rw [val_main_v50_apply, val_main_v49_apply, val_main_v47_apply, val_main_v45_apply, val_main_v48_apply,
    val_main_v46_apply, hq, ht]
  rfl

/-- The reference's L1 box cost at (p, q). -/
theorem l1_at (x1 : FVec Ideal S16x900x4 .f32) (x3 : FVec Ideal S960x4 .f32) (p : Fin 14400) (q : Fin 960) :
    val_main_v51 (F := Ideal) x1 x3 (ix2 p q)
      = l1Term (val_main_v7 (F := Ideal) x1 (ix2 p (0 : Fin 4))) (val_main_v7 (F := Ideal) x1 (ix2 p (1 : Fin 4)))
          (val_main_v7 (F := Ideal) x1 (ix2 p (2 : Fin 4))) (val_main_v7 (F := Ideal) x1 (ix2 p (3 : Fin 4)))
          (x3 (ix2 q (0 : Fin 4))) (x3 (ix2 q (1 : Fin 4))) (x3 (ix2 q (2 : Fin 4))) (x3 (ix2 q (3 : Fin 4))) := by
  have hk : ∀ k : Fin 4, idx_main_v51 (ix2 p q) k = ix3 p q k := fun k =>
    funext fun a => Fin.ext (by match a with | ⟨0, _⟩ => rfl | ⟨1, _⟩ => rfl | ⟨2, _⟩ => rfl)
  rw [val_main_v51_apply, val_main_cst_12_apply]
  simp only [hk, absdiff_at]
  rw [Fin.sum_univ_four]
  show Ideal.ofBits .f32 0x00000000#32 + _ = _
  rw [Cert.Consts.ofBits_zero, zero_add]
  rfl

end Cert.ReferenceIdeal.RefL1

end
-- ==== Proof.RefGiou.lean ====
/-
  The reference's generalized IoU. The reference first converts both box sets from (centre, size) to corner form
  (a concatenation of the four corner columns c - s/2, c - s/2, c + s/2, c + s/2 of the two axes), then takes areas as
  (x_max - x_min) * (y_max - y_min): on real numbers (c + s/2) - (c - s/2) = s, so these are the products w * h. The
  overlaps and spans are taken on [14400, 960, 2] arrays (both axes at once, clipped below at 0 by max 0 ·) and
  multiplied across the last axis; the union and the two quotients are then the expressions of `giou`, and the
  result is negated.
-/
import proofs.«410341_j55362128445461_2_alg».proof.Proof.Gen.ReferenceIdeal.Read
import proofs.«410341_j55362128445461_2_alg».proof.Proof.Spec
import proofs.«410341_j55362128445461_2_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefGiou

open Cert.ReferenceIdeal Cert.ReferenceIdeal.Read Cert.PairCost
open Idealize.ShloMosaic Idealize.ShloMosaic.ValueIdx

section Stages

variable (x1 : FVec Ideal S16x900x4 .f32) (x3 : FVec Ideal S960x4 .f32) (p : Fin 14400) (q : Fin 960)

/-! ## One real-number law: a box's side is its high side less its low side -/

/-- For real c and s, (c + s/2) - (c - s/2) = s. -/
private theorem side_sub (c s : ℝ) : hi (c : EReal) (s : EReal) - lo (c : EReal) (s : EReal) = (s : EReal) := by
  simp only [hi, lo, lit, Cert.Consts.ofBits_half]
  rw [← EReal.coe_mul, ← EReal.coe_add, ← EReal.coe_sub, ← EReal.coe_sub]
  congr 1
  ring

/-! ## The query boxes: the four columns (cx, cy, w, h) of a row -/

private theorem v53_at : val_main_v53 (F := Ideal) x1 (ix1 p) = val_main_v7 (F := Ideal) x1 (ix2 p (0 : Fin 4)) := by
  rw [val_main_v53_apply, val_main_v52_apply]
  refine congrArg _ (funext fun a => ?_)
  match a with
  | ⟨0, _⟩ => exact Fin.ext (Nat.div_one _)
  | ⟨1, _⟩ => rfl

private theorem v55_at : val_main_v55 (F := Ideal) x1 (ix1 p) = val_main_v7 (F := Ideal) x1 (ix2 p (1 : Fin 4)) := by
  rw [val_main_v55_apply, val_main_v54_apply]
  refine congrArg _ (funext fun a => ?_)
  match a with
  | ⟨0, _⟩ => exact Fin.ext (Nat.div_one _)
  | ⟨1, _⟩ => rfl

private theorem v57_at : val_main_v57 (F := Ideal) x1 (ix1 p) = val_main_v7 (F := Ideal) x1 (ix2 p (2 : Fin 4)) := by
  rw [val_main_v57_apply, val_main_v56_apply]
  refine congrArg _ (funext fun a => ?_)
  match a with
  | ⟨0, _⟩ => exact Fin.ext (Nat.div_one _)
  | ⟨1, _⟩ => rfl

private theorem v59_at : val_main_v59 (F := Ideal) x1 (ix1 p) = val_main_v7 (F := Ideal) x1 (ix2 p (3 : Fin 4)) := by
  rw [val_main_v59_apply, val_main_v58_apply]
  refine congrArg _ (funext fun a => ?_)
  match a with
  | ⟨0, _⟩ => exact Fin.ext (Nat.div_one _)
  | ⟨1, _⟩ => rfl

/-! ## The query boxes: the four corner columns -/

/-- cx - w/2. -/
private theorem v62_at : val_main_v62 (F := Ideal) x1 (ix1 p)
    = lo (val_main_v7 (F := Ideal) x1 (ix2 p (0 : Fin 4))) (val_main_v7 (F := Ideal) x1 (ix2 p (2 : Fin 4))) := by
  rw [val_main_v62_apply, val_main_v61_apply, val_main_v60_apply, val_main_cst_13_apply, v53_at, v57_at]
  rfl

/-- cy - h/2. -/
private theorem v65_at : val_main_v65 (F := Ideal) x1 (ix1 p)
    = lo (val_main_v7 (F := Ideal) x1 (ix2 p (1 : Fin 4))) (val_main_v7 (F := Ideal) x1 (ix2 p (3 : Fin 4))) := by
  rw [val_main_v65_apply, val_main_v64_apply, val_main_v63_apply, val_main_cst_14_apply, v55_at, v59_at]
  rfl

/-- cx + w/2. -/
private theorem v68_at : val_main_v68 (F := Ideal) x1 (ix1 p)
    = hi (val_main_v7 (F := Ideal) x1 (ix2 p (0 : Fin 4))) (val_main_v7 (F := Ideal) x1 (ix2 p (2 : Fin 4))) := by
  rw [val_main_v68_apply, val_main_v67_apply, val_main_v66_apply, val_main_cst_15_apply, v53_at, v57_at]
  rfl

/-- cy + h/2. -/
private theorem v71_at : val_main_v71 (F := Ideal) x1 (ix1 p)
    = hi (val_main_v7 (F := Ideal) x1 (ix2 p (1 : Fin 4))) (val_main_v7 (F := Ideal) x1 (ix2 p (3 : Fin 4))) := by
  rw [val_main_v71_apply, val_main_v70_apply, val_main_v69_apply, val_main_cst_16_apply, v55_at, v59_at]
  rfl

/-! ## The query boxes in corner form: column a of the concatenation along axis 1 is its piece a -/

private theorem q_lo_x : val_main_v76 (F := Ideal) x1 (ix2 p (0 : Fin 4))
    = lo (val_main_v7 (F := Ideal) x1 (ix2 p (0 : Fin 4))) (val_main_v7 (F := Ideal) x1 (ix2 p (2 : Fin 4))) := by
  unfold val_main_v76
  refine (concatenate_apply_piece (t := S14400x4) 1 _ _ (ix2 p (0 : Fin 4)) 0 (by simp) S14400x1
    (val_main_v72 (F := Ideal) x1) rfl rfl 0 rfl (ix2 p (0 : Fin 1)) ?_ ?_).trans ?_
  · intro b hb
    match b with
    | ⟨0, _⟩ => rfl
    | ⟨1, _⟩ => exact absurd rfl hb
  · rfl
  · rw [val_main_v72_apply, ← v62_at]
    refine congrArg _ (funext fun a => ?_)
    match a with
    | ⟨0, _⟩ => rfl

private theorem q_lo_y : val_main_v76 (F := Ideal) x1 (ix2 p (1 : Fin 4))
    = lo (val_main_v7 (F := Ideal) x1 (ix2 p (1 : Fin 4))) (val_main_v7 (F := Ideal) x1 (ix2 p (3 : Fin 4))) := by
  unfold val_main_v76
  refine (concatenate_apply_piece (t := S14400x4) 1 _ _ (ix2 p (1 : Fin 4)) 1 (by simp) S14400x1
    (val_main_v73 (F := Ideal) x1) rfl rfl 1 rfl (ix2 p (0 : Fin 1)) ?_ ?_).trans ?_
  · intro b hb
    match b with
    | ⟨0, _⟩ => rfl
    | ⟨1, _⟩ => exact absurd rfl hb
  · rfl
  · rw [val_main_v73_apply, ← v65_at]
    refine congrArg _ (funext fun a => ?_)
    match a with
    | ⟨0, _⟩ => rfl

private theorem q_hi_x : val_main_v76 (F := Ideal) x1 (ix2 p (2 : Fin 4))
    = hi (val_main_v7 (F := Ideal) x1 (ix2 p (0 : Fin 4))) (val_main_v7 (F := Ideal) x1 (ix2 p (2 : Fin 4))) := by
  unfold val_main_v76
  refine (concatenate_apply_piece (t := S14400x4) 1 _ _ (ix2 p (2 : Fin 4)) 2 (by simp) S14400x1
    (val_main_v74 (F := Ideal) x1) rfl rfl 2 rfl (ix2 p (0 : Fin 1)) ?_ ?_).trans ?_
  · intro b hb
    match b with
    | ⟨0, _⟩ => rfl
    | ⟨1, _⟩ => exact absurd rfl hb
  · rfl
  · rw [val_main_v74_apply, ← v68_at]
    refine congrArg _ (funext fun a => ?_)
    match a with
    | ⟨0, _⟩ => rfl

private theorem q_hi_y : val_main_v76 (F := Ideal) x1 (ix2 p (3 : Fin 4))
    = hi (val_main_v7 (F := Ideal) x1 (ix2 p (1 : Fin 4))) (val_main_v7 (F := Ideal) x1 (ix2 p (3 : Fin 4))) := by
  unfold val_main_v76
  refine (concatenate_apply_piece (t := S14400x4) 1 _ _ (ix2 p (3 : Fin 4)) 3 (by simp) S14400x1
    (val_main_v75 (F := Ideal) x1) rfl rfl 3 rfl (ix2 p (0 : Fin 1)) ?_ ?_).trans ?_
  · intro b hb
    match b with
    | ⟨0, _⟩ => rfl
    | ⟨1, _⟩ => exact absurd rfl hb
  · rfl
  · rw [val_main_v75_apply, ← v71_at]
    refine congrArg _ (funext fun a => ?_)
    match a with
    | ⟨0, _⟩ => rfl

/-! ## The target boxes: the four columns of a row, the corner columns, and their concatenation -/

private theorem v78_at : val_main_v78 (F := Ideal) x3 (ix1 q) = x3 (ix2 q (0 : Fin 4)) := by
  rw [val_main_v78_apply, val_main_v77_apply]
  refine congrArg _ (funext fun a => ?_)
  match a with
  | ⟨0, _⟩ => exact Fin.ext (Nat.div_one _)
  | ⟨1, _⟩ => rfl

private theorem v80_at : val_main_v80 (F := Ideal) x3 (ix1 q) = x3 (ix2 q (1 : Fin 4)) := by
  rw [val_main_v80_apply, val_main_v79_apply]
  refine congrArg _ (funext fun a => ?_)
  match a with
  | ⟨0, _⟩ => exact Fin.ext (Nat.div_one _)
  | ⟨1, _⟩ => rfl

private theorem v82_at : val_main_v82 (F := Ideal) x3 (ix1 q) = x3 (ix2 q (2 : Fin 4)) := by
  rw [val_main_v82_apply, val_main_v81_apply]
  refine congrArg _ (funext fun a => ?_)
  match a with
  | ⟨0, _⟩ => exact Fin.ext (Nat.div_one _)
  | ⟨1, _⟩ => rfl

private theorem v84_at : val_main_v84 (F := Ideal) x3 (ix1 q) = x3 (ix2 q (3 : Fin 4)) := by
  rw [val_main_v84_apply, val_main_v83_apply]
  refine congrArg _ (funext fun a => ?_)
  match a with
  | ⟨0, _⟩ => exact Fin.ext (Nat.div_one _)
  | ⟨1, _⟩ => rfl

/-- cx - w/2. -/
private theorem v87_at : val_main_v87 (F := Ideal) x3 (ix1 q) = lo (x3 (ix2 q (0 : Fin 4))) (x3 (ix2 q (2 : Fin 4))) := by
  rw [val_main_v87_apply, val_main_v86_apply, val_main_v85_apply, val_main_cst_17_apply, v78_at, v82_at]
  rfl

/-- cy - h/2. -/
private theorem v90_at : val_main_v90 (F := Ideal) x3 (ix1 q) = lo (x3 (ix2 q (1 : Fin 4))) (x3 (ix2 q (3 : Fin 4))) := by
  rw [val_main_v90_apply, val_main_v89_apply, val_main_v88_apply, val_main_cst_18_apply, v80_at, v84_at]
  rfl

/-- cx + w/2. -/
private theorem v93_at : val_main_v93 (F := Ideal) x3 (ix1 q) = hi (x3 (ix2 q (0 : Fin 4))) (x3 (ix2 q (2 : Fin 4))) := by
  rw [val_main_v93_apply, val_main_v92_apply, val_main_v91_apply, val_main_cst_19_apply, v78_at, v82_at]
  rfl

/-- cy + h/2. -/
private theorem v96_at : val_main_v96 (F := Ideal) x3 (ix1 q) = hi (x3 (ix2 q (1 : Fin 4))) (x3 (ix2 q (3 : Fin 4))) := by
  rw [val_main_v96_apply, val_main_v95_apply, val_main_v94_apply, val_main_cst_20_apply, v80_at, v84_at]
  rfl

private theorem t_lo_x : val_main_v101 (F := Ideal) x3 (ix2 q (0 : Fin 4)) = lo (x3 (ix2 q (0 : Fin 4))) (x3 (ix2 q (2 : Fin 4))) := by
  unfold val_main_v101
  refine (concatenate_apply_piece (t := S960x4) 1 _ _ (ix2 q (0 : Fin 4)) 0 (by simp) S960x1
    (val_main_v97 (F := Ideal) x3) rfl rfl 0 rfl (ix2 q (0 : Fin 1)) ?_ ?_).trans ?_
  · intro b hb
    match b with
    | ⟨0, _⟩ => rfl
    | ⟨1, _⟩ => exact absurd rfl hb
  · rfl
  · rw [val_main_v97_apply, ← v87_at]
    refine congrArg _ (funext fun a => ?_)
    match a with
    | ⟨0, _⟩ => rfl

private theorem t_lo_y : val_main_v101 (F := Ideal) x3 (ix2 q (1 : Fin 4)) = lo (x3 (ix2 q (1 : Fin 4))) (x3 (ix2 q (3 : Fin 4))) := by
  unfold val_main_v101
  refine (concatenate_apply_piece (t := S960x4) 1 _ _ (ix2 q (1 : Fin 4)) 1 (by simp) S960x1
    (val_main_v98 (F := Ideal) x3) rfl rfl 1 rfl (ix2 q (0 : Fin 1)) ?_ ?_).trans ?_
  · intro b hb
    match b with
    | ⟨0, _⟩ => rfl
    | ⟨1, _⟩ => exact absurd rfl hb
  · rfl
  · rw [val_main_v98_apply, ← v90_at]
    refine congrArg _ (funext fun a => ?_)
    match a with
    | ⟨0, _⟩ => rfl

private theorem t_hi_x : val_main_v101 (F := Ideal) x3 (ix2 q (2 : Fin 4)) = hi (x3 (ix2 q (0 : Fin 4))) (x3 (ix2 q (2 : Fin 4))) := by
  unfold val_main_v101
  refine (concatenate_apply_piece (t := S960x4) 1 _ _ (ix2 q (2 : Fin 4)) 2 (by simp) S960x1
    (val_main_v99 (F := Ideal) x3) rfl rfl 2 rfl (ix2 q (0 : Fin 1)) ?_ ?_).trans ?_
  · intro b hb
    match b with
    | ⟨0, _⟩ => rfl
    | ⟨1, _⟩ => exact absurd rfl hb
  · rfl
  · rw [val_main_v99_apply, ← v93_at]
    refine congrArg _ (funext fun a => ?_)
    match a with
    | ⟨0, _⟩ => rfl

private theorem t_hi_y : val_main_v101 (F := Ideal) x3 (ix2 q (3 : Fin 4)) = hi (x3 (ix2 q (1 : Fin 4))) (x3 (ix2 q (3 : Fin 4))) := by
  unfold val_main_v101
  refine (concatenate_apply_piece (t := S960x4) 1 _ _ (ix2 q (3 : Fin 4)) 3 (by simp) S960x1
    (val_main_v100 (F := Ideal) x3) rfl rfl 3 rfl (ix2 q (0 : Fin 1)) ?_ ?_).trans ?_
  · intro b hb
    match b with
    | ⟨0, _⟩ => rfl
    | ⟨1, _⟩ => exact absurd rfl hb
  · rfl
  · rw [val_main_v100_apply, ← v96_at]
    refine congrArg _ (funext fun a => ?_)
    match a with
    | ⟨0, _⟩ => rfl

/-! ## The two areas: (x_max - x_min) * (y_max - y_min) is w * h for a finite box -/

private theorem q_real (hfin1 : ∀ i, ∃ r : ℝ, x1 i = (r : EReal)) (k : Fin 4) :
    ∃ r : ℝ, val_main_v7 (F := Ideal) x1 (ix2 p k) = (r : EReal) := by
  rw [val_main_v7_apply]
  exact hfin1 _

private theorem v103_at : val_main_v103 (F := Ideal) x1 (ix1 p) = val_main_v76 (F := Ideal) x1 (ix2 p (2 : Fin 4)) := by
  rw [val_main_v103_apply, val_main_v102_apply]
  refine congrArg _ (funext fun a => ?_)
  match a with
  | ⟨0, _⟩ => exact Fin.ext (Nat.div_one _)
  | ⟨1, _⟩ => rfl

private theorem v105_at : val_main_v105 (F := Ideal) x1 (ix1 p) = val_main_v76 (F := Ideal) x1 (ix2 p (0 : Fin 4)) := by
  rw [val_main_v105_apply, val_main_v104_apply]
  refine congrArg _ (funext fun a => ?_)
  match a with
  | ⟨0, _⟩ => exact Fin.ext (Nat.div_one _)
  | ⟨1, _⟩ => rfl

private theorem v108_at : val_main_v108 (F := Ideal) x1 (ix1 p) = val_main_v76 (F := Ideal) x1 (ix2 p (3 : Fin 4)) := by
  rw [val_main_v108_apply, val_main_v107_apply]
  refine congrArg _ (funext fun a => ?_)
  match a with
  | ⟨0, _⟩ => exact Fin.ext (Nat.div_one _)
  | ⟨1, _⟩ => rfl

private theorem v110_at : val_main_v110 (F := Ideal) x1 (ix1 p) = val_main_v76 (F := Ideal) x1 (ix2 p (1 : Fin 4)) := by
  rw [val_main_v110_apply, val_main_v109_apply]
  refine congrArg _ (funext fun a => ?_)
  match a with
  | ⟨0, _⟩ => exact Fin.ext (Nat.div_one _)
  | ⟨1, _⟩ => rfl

/-- The area of a finite query box is w * h. -/
private theorem area1_at (hfin1 : ∀ i, ∃ r : ℝ, x1 i = (r : EReal)) :
    val_main_v112 (F := Ideal) x1 (ix1 p)
      = val_main_v7 (F := Ideal) x1 (ix2 p (2 : Fin 4)) * val_main_v7 (F := Ideal) x1 (ix2 p (3 : Fin 4)) := by
  rw [val_main_v112_apply, val_main_v106_apply, val_main_v111_apply, v103_at, v105_at, v108_at, v110_at,
    q_hi_x, q_lo_x, q_hi_y, q_lo_y]
  obtain ⟨cx, hcx⟩ := q_real x1 p hfin1 0
  obtain ⟨cy, hcy⟩ := q_real x1 p hfin1 1
  obtain ⟨w, hw⟩ := q_real x1 p hfin1 2
  obtain ⟨h, hh⟩ := q_real x1 p hfin1 3
  rw [hcx, hcy, hw, hh]
  simp only [Ideal.mulf_def, Ideal.subf_def]
  rw [side_sub, side_sub]

private theorem v114_at : val_main_v114 (F := Ideal) x3 (ix1 q) = val_main_v101 (F := Ideal) x3 (ix2 q (2 : Fin 4)) := by
  rw [val_main_v114_apply, val_main_v113_apply]
  refine congrArg _ (funext fun a => ?_)
  match a with
  | ⟨0, _⟩ => exact Fin.ext (Nat.div_one _)
  | ⟨1, _⟩ => rfl

private theorem v116_at : val_main_v116 (F := Ideal) x3 (ix1 q) = val_main_v101 (F := Ideal) x3 (ix2 q (0 : Fin 4)) := by
  rw [val_main_v116_apply, val_main_v115_apply]
  refine congrArg _ (funext fun a => ?_)
  match a with
  | ⟨0, _⟩ => exact Fin.ext (Nat.div_one _)
  | ⟨1, _⟩ => rfl

private theorem v119_at : val_main_v119 (F := Ideal) x3 (ix1 q) = val_main_v101 (F := Ideal) x3 (ix2 q (3 : Fin 4)) := by
  rw [val_main_v119_apply, val_main_v118_apply]
  refine congrArg _ (funext fun a => ?_)
  match a with
  | ⟨0, _⟩ => exact Fin.ext (Nat.div_one _)
  | ⟨1, _⟩ => rfl

private theorem v121_at : val_main_v121 (F := Ideal) x3 (ix1 q) = val_main_v101 (F := Ideal) x3 (ix2 q (1 : Fin 4)) := by
  rw [val_main_v121_apply, val_main_v120_apply]
  refine congrArg _ (funext fun a => ?_)
  match a with
  | ⟨0, _⟩ => exact Fin.ext (Nat.div_one _)
  | ⟨1, _⟩ => rfl

/-- The area of a finite target box is w * h. -/
private theorem area2_at (hfin3 : ∀ i, ∃ r : ℝ, x3 i = (r : EReal)) :
    val_main_v123 (F := Ideal) x3 (ix1 q) = x3 (ix2 q (2 : Fin 4)) * x3 (ix2 q (3 : Fin 4)) := by
  rw [val_main_v123_apply, val_main_v117_apply, val_main_v122_apply, v114_at, v116_at, v119_at, v121_at,
    t_hi_x, t_lo_x, t_hi_y, t_lo_y]
  obtain ⟨cx, hcx⟩ := hfin3 (ix2 q (0 : Fin 4))
  obtain ⟨cy, hcy⟩ := hfin3 (ix2 q (1 : Fin 4))
  obtain ⟨w, hw⟩ := hfin3 (ix2 q (2 : Fin 4))
  obtain ⟨h, hh⟩ := hfin3 (ix2 q (3 : Fin 4))
  rw [hcx, hcy, hw, hh]
  simp only [Ideal.mulf_def, Ideal.subf_def]
  rw [side_sub, side_sub]

/-! ## The [14400, 960, 2] corner arrays read at (p, q, axis) -/

private theorem v128_at0 : val_main_v128 (F := Ideal) x1 (ix3 p q (0 : Fin 2)) = val_main_v76 (F := Ideal) x1 (ix2 p (0 : Fin 4)) := by
  rw [val_main_v128_apply, val_main_v125_apply, val_main_v124_apply]
  refine congrArg _ (funext fun a => ?_)
  match a with
  | ⟨0, _⟩ => rfl
  | ⟨1, _⟩ => rfl

private theorem v128_at1 : val_main_v128 (F := Ideal) x1 (ix3 p q (1 : Fin 2)) = val_main_v76 (F := Ideal) x1 (ix2 p (1 : Fin 4)) := by
  rw [val_main_v128_apply, val_main_v125_apply, val_main_v124_apply]
  refine congrArg _ (funext fun a => ?_)
  match a with
  | ⟨0, _⟩ => rfl
  | ⟨1, _⟩ => rfl

private theorem v129_at0 : val_main_v129 (F := Ideal) x3 (ix3 p q (0 : Fin 2)) = val_main_v101 (F := Ideal) x3 (ix2 q (0 : Fin 4)) := by
  rw [val_main_v129_apply, val_main_v127_apply, val_main_v126_apply]
  refine congrArg _ (funext fun a => ?_)
  match a with
  | ⟨0, _⟩ => rfl
  | ⟨1, _⟩ => rfl

private theorem v129_at1 : val_main_v129 (F := Ideal) x3 (ix3 p q (1 : Fin 2)) = val_main_v101 (F := Ideal) x3 (ix2 q (1 : Fin 4)) := by
  rw [val_main_v129_apply, val_main_v127_apply, val_main_v126_apply]
  refine congrArg _ (funext fun a => ?_)
  match a with
  | ⟨0, _⟩ => rfl
  | ⟨1, _⟩ => rfl

private theorem v135_at0 : val_main_v135 (F := Ideal) x1 (ix3 p q (0 : Fin 2)) = val_main_v76 (F := Ideal) x1 (ix2 p (2 : Fin 4)) := by
  rw [val_main_v135_apply, val_main_v132_apply, val_main_v131_apply]
  refine congrArg _ (funext fun a => ?_)
  match a with
  | ⟨0, _⟩ => rfl
  | ⟨1, _⟩ => rfl

private theorem v135_at1 : val_main_v135 (F := Ideal) x1 (ix3 p q (1 : Fin 2)) = val_main_v76 (F := Ideal) x1 (ix2 p (3 : Fin 4)) := by
  rw [val_main_v135_apply, val_main_v132_apply, val_main_v131_apply]
  refine congrArg _ (funext fun a => ?_)
  match a with
  | ⟨0, _⟩ => rfl
  | ⟨1, _⟩ => rfl

private theorem v136_at0 : val_main_v136 (F := Ideal) x3 (ix3 p q (0 : Fin 2)) = val_main_v101 (F := Ideal) x3 (ix2 q (2 : Fin 4)) := by
  rw [val_main_v136_apply, val_main_v134_apply, val_main_v133_apply]
  refine congrArg _ (funext fun a => ?_)
  match a with
  | ⟨0, _⟩ => rfl
  | ⟨1, _⟩ => rfl

private theorem v136_at1 : val_main_v136 (F := Ideal) x3 (ix3 p q (1 : Fin 2)) = val_main_v101 (F := Ideal) x3 (ix2 q (3 : Fin 4)) := by
  rw [val_main_v136_apply, val_main_v134_apply, val_main_v133_apply]
  refine congrArg _ (funext fun a => ?_)
  match a with
  | ⟨0, _⟩ => rfl
  | ⟨1, _⟩ => rfl

private theorem v156_at0 : val_main_v156 (F := Ideal) x1 (ix3 p q (0 : Fin 2)) = val_main_v76 (F := Ideal) x1 (ix2 p (0 : Fin 4)) := by
  rw [val_main_v156_apply, val_main_v153_apply, val_main_v152_apply]
  refine congrArg _ (funext fun a => ?_)
  match a with
  | ⟨0, _⟩ => rfl
  | ⟨1, _⟩ => rfl

private theorem v156_at1 : val_main_v156 (F := Ideal) x1 (ix3 p q (1 : Fin 2)) = val_main_v76 (F := Ideal) x1 (ix2 p (1 : Fin 4)) := by
  rw [val_main_v156_apply, val_main_v153_apply, val_main_v152_apply]
  refine congrArg _ (funext fun a => ?_)
  match a with
  | ⟨0, _⟩ => rfl
  | ⟨1, _⟩ => rfl

private theorem v157_at0 : val_main_v157 (F := Ideal) x3 (ix3 p q (0 : Fin 2)) = val_main_v101 (F := Ideal) x3 (ix2 q (0 : Fin 4)) := by
  rw [val_main_v157_apply, val_main_v155_apply, val_main_v154_apply]
  refine congrArg _ (funext fun a => ?_)
  match a with
  | ⟨0, _⟩ => rfl
  | ⟨1, _⟩ => rfl

private theorem v157_at1 : val_main_v157 (F := Ideal) x3 (ix3 p q (1 : Fin 2)) = val_main_v101 (F := Ideal) x3 (ix2 q (1 : Fin 4)) := by
  rw [val_main_v157_apply, val_main_v155_apply, val_main_v154_apply]
  refine congrArg _ (funext fun a => ?_)
  match a with
  | ⟨0, _⟩ => rfl
  | ⟨1, _⟩ => rfl

private theorem v163_at0 : val_main_v163 (F := Ideal) x1 (ix3 p q (0 : Fin 2)) = val_main_v76 (F := Ideal) x1 (ix2 p (2 : Fin 4)) := by
  rw [val_main_v163_apply, val_main_v160_apply, val_main_v159_apply]
  refine congrArg _ (funext fun a => ?_)
  match a with
  | ⟨0, _⟩ => rfl
  | ⟨1, _⟩ => rfl

private theorem v163_at1 : val_main_v163 (F := Ideal) x1 (ix3 p q (1 : Fin 2)) = val_main_v76 (F := Ideal) x1 (ix2 p (3 : Fin 4)) := by
  rw [val_main_v163_apply, val_main_v160_apply, val_main_v159_apply]
  refine congrArg _ (funext fun a => ?_)
  match a with
  | ⟨0, _⟩ => rfl
  | ⟨1, _⟩ => rfl

private theorem v164_at0 : val_main_v164 (F := Ideal) x3 (ix3 p q (0 : Fin 2)) = val_main_v101 (F := Ideal) x3 (ix2 q (2 : Fin 4)) := by
  rw [val_main_v164_apply, val_main_v162_apply, val_main_v161_apply]
  refine congrArg _ (funext fun a => ?_)
  match a with
  | ⟨0, _⟩ => rfl
  | ⟨1, _⟩ => rfl

private theorem v164_at1 : val_main_v164 (F := Ideal) x3 (ix3 p q (1 : Fin 2)) = val_main_v101 (F := Ideal) x3 (ix2 q (3 : Fin 4)) := by
  rw [val_main_v164_apply, val_main_v162_apply, val_main_v161_apply]
  refine congrArg _ (funext fun a => ?_)
  match a with
  | ⟨0, _⟩ => rfl
  | ⟨1, _⟩ => rfl

/-! ## The clipped overlaps and spans on the two axes (max 0 · is max · 0), and their products -/

private theorem v139_at0 : val_main_v139 (F := Ideal) x1 x3 (ix3 p q (0 : Fin 2))
    = overlap (val_main_v7 (F := Ideal) x1 (ix2 p (0 : Fin 4))) (val_main_v7 (F := Ideal) x1 (ix2 p (2 : Fin 4)))
        (x3 (ix2 q (0 : Fin 4))) (x3 (ix2 q (2 : Fin 4))) := by
  rw [val_main_v139_apply, val_main_call0_v1_apply, val_main_call0_v0_apply, val_main_cst_21_apply, val_main_v138_apply,
    val_main_v137_apply, val_main_v130_apply, v128_at0, v129_at0, v135_at0, v136_at0, q_lo_x, t_lo_x, q_hi_x, t_hi_x]
  exact max_comm _ _

private theorem v139_at1 : val_main_v139 (F := Ideal) x1 x3 (ix3 p q (1 : Fin 2))
    = overlap (val_main_v7 (F := Ideal) x1 (ix2 p (1 : Fin 4))) (val_main_v7 (F := Ideal) x1 (ix2 p (3 : Fin 4)))
        (x3 (ix2 q (1 : Fin 4))) (x3 (ix2 q (3 : Fin 4))) := by
  rw [val_main_v139_apply, val_main_call0_v1_apply, val_main_call0_v0_apply, val_main_cst_21_apply, val_main_v138_apply,
    val_main_v137_apply, val_main_v130_apply, v128_at1, v129_at1, v135_at1, v136_at1, q_lo_y, t_lo_y, q_hi_y, t_hi_y]
  exact max_comm _ _

private theorem v167_at0 : val_main_v167 (F := Ideal) x1 x3 (ix3 p q (0 : Fin 2))
    = span (val_main_v7 (F := Ideal) x1 (ix2 p (0 : Fin 4))) (val_main_v7 (F := Ideal) x1 (ix2 p (2 : Fin 4)))
        (x3 (ix2 q (0 : Fin 4))) (x3 (ix2 q (2 : Fin 4))) := by
  rw [val_main_v167_apply, val_main_call1_v1_apply, val_main_call1_v0_apply, val_main_cst_22_apply, val_main_v166_apply,
    val_main_v165_apply, val_main_v158_apply, v156_at0, v157_at0, v163_at0, v164_at0, q_lo_x, t_lo_x, q_hi_x, t_hi_x]
  exact max_comm _ _

private theorem v167_at1 : val_main_v167 (F := Ideal) x1 x3 (ix3 p q (1 : Fin 2))
    = span (val_main_v7 (F := Ideal) x1 (ix2 p (1 : Fin 4))) (val_main_v7 (F := Ideal) x1 (ix2 p (3 : Fin 4)))
        (x3 (ix2 q (1 : Fin 4))) (x3 (ix2 q (3 : Fin 4))) := by
  rw [val_main_v167_apply, val_main_call1_v1_apply, val_main_call1_v0_apply, val_main_cst_22_apply, val_main_v166_apply,
    val_main_v165_apply, val_main_v158_apply, v156_at1, v157_at1, v163_at1, v164_at1, q_lo_y, t_lo_y, q_hi_y, t_hi_y]
  exact max_comm _ _

private theorem v141_at : val_main_v141 (F := Ideal) x1 x3 (ix2 p q) = val_main_v139 (F := Ideal) x1 x3 (ix3 p q (0 : Fin 2)) := by
  rw [val_main_v141_apply, val_main_v140_apply]
  refine congrArg _ (funext fun a => ?_)
  have hp := p.isLt
  have hq := q.isLt
  match a with
  | ⟨0, _⟩ => exact Fin.ext (by show (p.val * 960 + q.val) / 960 = p.val; omega)
  | ⟨1, _⟩ => exact Fin.ext (by show (p.val * 960 + q.val) / 1 % 960 = q.val; omega)
  | ⟨2, _⟩ => rfl

private theorem v143_at : val_main_v143 (F := Ideal) x1 x3 (ix2 p q) = val_main_v139 (F := Ideal) x1 x3 (ix3 p q (1 : Fin 2)) := by
  rw [val_main_v143_apply, val_main_v142_apply]
  refine congrArg _ (funext fun a => ?_)
  have hp := p.isLt
  have hq := q.isLt
  match a with
  | ⟨0, _⟩ => exact Fin.ext (by show (p.val * 960 + q.val) / 960 = p.val; omega)
  | ⟨1, _⟩ => exact Fin.ext (by show (p.val * 960 + q.val) / 1 % 960 = q.val; omega)
  | ⟨2, _⟩ => rfl

private theorem v169_at : val_main_v169 (F := Ideal) x1 x3 (ix2 p q) = val_main_v167 (F := Ideal) x1 x3 (ix3 p q (0 : Fin 2)) := by
  rw [val_main_v169_apply, val_main_v168_apply]
  refine congrArg _ (funext fun a => ?_)
  have hp := p.isLt
  have hq := q.isLt
  match a with
  | ⟨0, _⟩ => exact Fin.ext (by show (p.val * 960 + q.val) / 960 = p.val; omega)
  | ⟨1, _⟩ => exact Fin.ext (by show (p.val * 960 + q.val) / 1 % 960 = q.val; omega)
  | ⟨2, _⟩ => rfl

private theorem v171_at : val_main_v171 (F := Ideal) x1 x3 (ix2 p q) = val_main_v167 (F := Ideal) x1 x3 (ix3 p q (1 : Fin 2)) := by
  rw [val_main_v171_apply, val_main_v170_apply]
  refine congrArg _ (funext fun a => ?_)
  have hp := p.isLt
  have hq := q.isLt
  match a with
  | ⟨0, _⟩ => exact Fin.ext (by show (p.val * 960 + q.val) / 960 = p.val; omega)
  | ⟨1, _⟩ => exact Fin.ext (by show (p.val * 960 + q.val) / 1 % 960 = q.val; omega)
  | ⟨2, _⟩ => rfl

/-- The intersection area: the product of the two axes' clipped overlaps. -/
private theorem inter_at : val_main_v144 (F := Ideal) x1 x3 (ix2 p q)
    = interArea (val_main_v7 (F := Ideal) x1 (ix2 p (0 : Fin 4))) (val_main_v7 (F := Ideal) x1 (ix2 p (1 : Fin 4)))
        (val_main_v7 (F := Ideal) x1 (ix2 p (2 : Fin 4))) (val_main_v7 (F := Ideal) x1 (ix2 p (3 : Fin 4)))
        (x3 (ix2 q (0 : Fin 4))) (x3 (ix2 q (1 : Fin 4))) (x3 (ix2 q (2 : Fin 4))) (x3 (ix2 q (3 : Fin 4))) := by
  rw [val_main_v144_apply, v141_at, v143_at, v139_at0, v139_at1]
  rfl

/-- The hull area: the product of the two axes' clipped spans. -/
private theorem hull_at : val_main_v172 (F := Ideal) x1 x3 (ix2 p q)
    = hullArea (val_main_v7 (F := Ideal) x1 (ix2 p (0 : Fin 4))) (val_main_v7 (F := Ideal) x1 (ix2 p (1 : Fin 4)))
        (val_main_v7 (F := Ideal) x1 (ix2 p (2 : Fin 4))) (val_main_v7 (F := Ideal) x1 (ix2 p (3 : Fin 4)))
        (x3 (ix2 q (0 : Fin 4))) (x3 (ix2 q (1 : Fin 4))) (x3 (ix2 q (2 : Fin 4))) (x3 (ix2 q (3 : Fin 4))) := by
  rw [val_main_v172_apply, v169_at, v171_at, v167_at0, v167_at1]
  rfl

/-! ## The union area: the two boxes' areas less the intersection -/

private theorem v147_at : val_main_v147 (F := Ideal) x1 (ix2 p q) = val_main_v112 (F := Ideal) x1 (ix1 p) := by
  rw [val_main_v147_apply, val_main_v145_apply]
  refine congrArg _ (funext fun a => ?_)
  match a with
  | ⟨0, _⟩ => rfl

private theorem v148_at : val_main_v148 (F := Ideal) x3 (ix2 p q) = val_main_v123 (F := Ideal) x3 (ix1 q) := by
  rw [val_main_v148_apply, val_main_v146_apply]
  refine congrArg _ (funext fun a => ?_)
  match a with
  | ⟨0, _⟩ => rfl

private theorem union_at (hfin1 : ∀ i, ∃ r : ℝ, x1 i = (r : EReal)) (hfin3 : ∀ i, ∃ r : ℝ, x3 i = (r : EReal)) :
    val_main_v150 (F := Ideal) x1 x3 (ix2 p q)
    = unionArea (val_main_v7 (F := Ideal) x1 (ix2 p (0 : Fin 4))) (val_main_v7 (F := Ideal) x1 (ix2 p (1 : Fin 4)))
        (val_main_v7 (F := Ideal) x1 (ix2 p (2 : Fin 4))) (val_main_v7 (F := Ideal) x1 (ix2 p (3 : Fin 4)))
        (x3 (ix2 q (0 : Fin 4))) (x3 (ix2 q (1 : Fin 4))) (x3 (ix2 q (2 : Fin 4))) (x3 (ix2 q (3 : Fin 4))) := by
  rw [val_main_v150_apply, val_main_v149_apply, v147_at, v148_at, area1_at x1 p hfin1, area2_at x3 q hfin3, inter_at]
  rfl

/-! ## The assembly: intersection / union - (hull - union) / hull, negated; -a = 0 - a -/

end Stages

/-- The reference's negated generalized IoU at (p, q), for finite boxes. -/
theorem giou_at (x1 : FVec Ideal S16x900x4 .f32) (x3 : FVec Ideal S960x4 .f32)
    (hfin1 : ∀ i, ∃ r : ℝ, x1 i = (r : EReal)) (hfin3 : ∀ i, ∃ r : ℝ, x3 i = (r : EReal)) (p : Fin 14400) (q : Fin 960) :
    val_main_v176 (F := Ideal) x1 x3 (ix2 p q)
      = lit 0x00000000#32 - giou (val_main_v7 (F := Ideal) x1 (ix2 p (0 : Fin 4))) (val_main_v7 (F := Ideal) x1 (ix2 p (1 : Fin 4)))
          (val_main_v7 (F := Ideal) x1 (ix2 p (2 : Fin 4))) (val_main_v7 (F := Ideal) x1 (ix2 p (3 : Fin 4)))
          (x3 (ix2 q (0 : Fin 4))) (x3 (ix2 q (1 : Fin 4))) (x3 (ix2 q (2 : Fin 4))) (x3 (ix2 q (3 : Fin 4))) := by
  rw [val_main_v176_apply, val_main_v175_apply, val_main_v151_apply, val_main_v174_apply, val_main_v173_apply,
    inter_at, union_at x1 x3 p q hfin1 hfin3, hull_at]
  rw [show lit 0x00000000#32 = 0 from Cert.Consts.ofBits_zero, zero_sub]
  rfl

end Cert.ReferenceIdeal.RefGiou

end
-- ==== Proof.RefValue.lean ====
/-
  The reference's result is the reshaped cost matrix: entry (p, q) of its [14400, 960] value is
  5 * L1 + 2 * class + 2 * (negated GIoU), the three terms as read in the two modules before this one.
-/
import proofs.«410341_j55362128445461_2_alg».proof.Proof.Gen.ReferenceIdeal.Read
import proofs.«410341_j55362128445461_2_alg».proof.Proof.Spec
import proofs.«410341_j55362128445461_2_alg».proof.Proof.RefClass
import proofs.«410341_j55362128445461_2_alg».proof.Proof.RefL1
import proofs.«410341_j55362128445461_2_alg».proof.Proof.RefGiou
import Idealize.ShloMosaic.Lib.ValueIdx

noncomputable section

open scoped BigOperators

namespace Cert.ReferenceIdeal.RefValue

open Cert.ReferenceIdeal Cert.ReferenceIdeal.Gen Cert.ReferenceIdeal.Read Cert.PairCost
open Idealize.ShloMosaic Idealize.ShloMosaic.ValueIdx

/-- The reference's value before its final reshape, entry by entry, is the cost matrix of its two flattened inputs,
    the class words and the target boxes. -/
theorem value_at (x0 : FVec Ideal S16x900x91 .f32) (x1 : FVec Ideal S16x900x4 .f32) (x2 : IVec S960 32) (x3 : FVec Ideal S960x4 .f32)
    (hfin0 : ∀ i, ∃ r : ℝ, x0 i = (r : EReal)) (hfin1 : ∀ i, ∃ r : ℝ, x1 i = (r : EReal)) (hfin3 : ∀ i, ∃ r : ℝ, x3 i = (r : EReal))
    (hid : ∀ j, 0 ≤ (x2 j).toInt ∧ (x2 j).toInt < 91) (p : Fin 14400) (q : Fin 960) :
    val_main_v184 (F := Ideal) x0 x1 x2 x3 (ix2 p q)
      = costAt (val_main_v0 (F := Ideal) x0) (val_main_v7 (F := Ideal) x1) x2 x3 p q := by
  -- the three weights are scalars spread over the matrix: each entry is the literal's word
  have h5 : val_main_v177 (F := Ideal) (ix2 p q) = lit 0x40A00000#32 := by
    rw [val_main_v177_apply, val_main_cst_23_apply]; rfl
  have h2c : val_main_v179 (F := Ideal) (ix2 p q) = lit 0x40000000#32 := by
    rw [val_main_v179_apply, val_main_cst_24_apply]; rfl
  have h2g : val_main_v182 (F := Ideal) (ix2 p q) = lit 0x40000000#32 := by
    rw [val_main_v182_apply, val_main_cst_25_apply]; rfl
  -- the entry is (5 * L1 + 2 * class) + 2 * (negated GIoU), the three terms as the modules before read them
  rw [val_main_v184_apply, val_main_v181_apply, val_main_v183_apply, val_main_v178_apply, val_main_v180_apply,
    h5, h2c, h2g, RefL1.l1_at x1 x3 p q, RefClass.class_at x0 x2 hfin0 hid p q,
    RefGiou.giou_at x1 x3 hfin1 hfin3 p q]
  rfl

/-- The reference's result: the cost matrix of its flattened inputs, reshaped to [16, 900, 960]. -/
theorem value_eq (x0 : FVec Ideal S16x900x91 .f32) (x1 : FVec Ideal S16x900x4 .f32) (x2 : IVec S960 32) (x3 : FVec Ideal S960x4 .f32)
    (hfin0 : ∀ i, ∃ r : ℝ, x0 i = (r : EReal)) (hfin1 : ∀ i, ∃ r : ℝ, x1 i = (r : EReal)) (hfin3 : ∀ i, ∃ r : ℝ, x3 i = (r : EReal))
    (hid : ∀ j, 0 ≤ (x2 j).toInt ∧ (x2 j).toInt < 91) :
    val_main_v185 (F := Ideal) x0 x1 x2 x3
      = shapeCast S16x900x960 (costMatrix (val_main_v0 (F := Ideal) x0) (val_main_v7 (F := Ideal) x1) x2 x3) shapeCasts_S14400x960_S16x900x960 := by
  unfold val_main_v185
  congr 1
  funext y
  obtain ⟨p, q, rfl⟩ : ∃ (p : Fin 14400) (q : Fin 960), y = ix2 p q := ⟨y 0, y 1, eq_ix2 y⟩
  exact value_at x0 x1 x2 x3 hfin0 hfin1 hfin3 hid p q

end Cert.ReferenceIdeal.RefValue

end
-- ==== Proof.lean ====
/-
  The matching-cost kernel against its jnp reference, over the extended reals.

  Both programs compute, for each of the 16 * 900 query boxes and each of the 960 target boxes, the cost
      5 * L1(boxes) + 2 * class(logits, target class) - 2 * GIoU(boxes)
  (Proof/Spec.lean states it as one function). The kernel works on [480, 960] blocks of the flattened [14400, 960]
  cost matrix and selects the class term by a matrix product with a 0/1 indicator matrix built on the host; the
  reference works on whole arrays and selects it by a gather at the target class words. The two agree where the class
  words lie in [0, 91) (outside it the indicator column is zero while the gather wraps and clamps), which the
  precondition states beside the finiteness of the float inputs; finiteness is used where the reference takes a box's
  area from its corners, (c + s/2) - (c - s/2) = s.

  The three frames are the generated frame runs (the reference's is its run with the result dropped); the kernel's
  idealization rewrote no operation, so `preserves` is trivial; the value claim puts the kernel's run with its result
  named (Proof/KernelRun.lean) beside the reference's run read back (Proof/RefValue.lean) under the decoded
  precondition (Proof/PreDecode.lean).
-/
import proofs.«410341_j55362128445461_2_alg».proof.Defs
import proofs.«410341_j55362128445461_2_alg».proof.Proof.Gen.Kernel
import proofs.«410341_j55362128445461_2_alg».proof.Proof.Gen.Kernel.Frame
import proofs.«410341_j55362128445461_2_alg».proof.Proof.Gen.KernelIdeal
import proofs.«410341_j55362128445461_2_alg».proof.Proof.Gen.KernelIdeal.Frame
import proofs.«410341_j55362128445461_2_alg».proof.Proof.Gen.ReferenceIdeal
import proofs.«410341_j55362128445461_2_alg».proof.Proof.Gen.Pre_finite_inputs
import proofs.«410341_j55362128445461_2_alg».proof.Proof.Gen.ReferenceIdeal.Run
import proofs.«410341_j55362128445461_2_alg».proof.Proof.Gen.ReferenceIdeal.Read
import proofs.«410341_j55362128445461_2_alg».proof.Proof.PreDecode
import proofs.«410341_j55362128445461_2_alg».proof.Proof.KernelRun
import proofs.«410341_j55362128445461_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four inputs, both idealized programs end with the reshaped cost matrix of the
    flattened logits and query boxes, the class words and the target boxes. -/
theorem algebraic : Cert.algebraic_KernelIdeal_ReferenceIdeal := by
  intro m ρ m' ρ' hpre hagree
  refine ⟨Cert.KernelIdeal.RunValue.result m, Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3, hid⟩ := Cert.PreDecode.decode _ _ _ _ (hpre c)
  rw [Cert.ReferenceIdeal.Read.val_main_v185_eq, (hagree c).1, (hagree c).2.1, (hagree c).2.2.1, (hagree c).2.2.2,
    Cert.ReferenceIdeal.RefValue.value_eq _ _ _ _ h0 h1 h3 hid]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
